-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x128 : Shape := ⟨3, ![64, 512, 128]⟩
abbrev S64x2048x512 : Shape := ⟨3, ![64, 2048, 512]⟩
abbrev S64x2048x256 : Shape := ⟨3, ![64, 2048, 256]⟩
abbrev S64x256 : Shape := ⟨2, ![64, 256]⟩
abbrev S_ : Shape := ⟨0, ![]⟩

class Facts : Prop where
  bcast_S_S64x512x128 : S_.BroadcastsInDim S64x512x128 (![] : Fin 0 → Fin S64x512x128.rank)
  reducesTo_S64x512x128_S_d0_1_2 : S64x512x128.ReducesTo [0, 1, 2] S_
  h_S_ : 0 < S_.numel
  bcast_S_S64x2048x512 : S_.BroadcastsInDim S64x2048x512 (![] : Fin 0 → Fin S64x2048x512.rank)
  reducesTo_S64x2048x512_S_d0_1_2 : S64x2048x512.ReducesTo [0, 1, 2] S_
  bcast_S_S64x2048x256 : S_.BroadcastsInDim S64x2048x256 (![] : Fin 0 → Fin S64x2048x256.rank)
  reducesTo_S64x2048x256_S_d0_1_2 : S64x2048x256.ReducesTo [0, 1, 2] S_
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_arg3 : IVec S64x256 32) (main_v13 : IVec S_ 1) (main_v15 : IVec S64x256 1) (main_c_5 : IVec S_ 1) : IVec S_ 1 :=
  let main_v16 : IVec S_ 1 := (fun x v => Host.reduce IntOp.andi x v reducesTo_S64x256_S_d0_1 h_S_) main_v15 main_c_5
  let main_v17 : IVec S_ 1 := andi main_v13 main_v16
  let main_c_6 : IVec S_ 32 := constantI S_ 32 128#32
  let main_v18 : IVec S64x256 32 := broadcastInDim S64x256 ![] bcast_S_S64x256 main_c_6
  let main_v19 : IVec S64x256 1 := cmpi .slt main_arg3 main_v18
  let main_c_7 : IVec S_ 1 := constantI S_ 1 1#1
  let main_v20 : IVec S_ 1 := (fun x v => Host.reduce IntOp.andi x v reducesTo_S64x256_S_d0_1 h_S_) main_v19 main_c_7
  let main_v21 : IVec S_ 1 := andi main_v17 main_v20
  main_v21

def fn {F : FTy → Type} [FloatOps F] (main_arg0 : FVec F S64x512x128 .f32) (main_arg1 : FVec F S64x2048x512 .f32) (main_arg2 : FVec F S64x2048x256 .f32) (main_arg3 : IVec S64x256 32) : IVec S_ 1 :=
  let main_v0 : FVec F S64x512x128 .f32 := Host.absf main_arg0
  let main_cst : FVec F S_ .f32 := constant S_ .f32 0x7F800000#32
  let main_v1 : FVec F S64x512x128 .f32 := broadcastInDim S64x512x128 ![] bcast_S_S64x512x128 main_cst
  let main_v2 : IVec S64x512x128 1 := cmpf .olt main_v0 main_v1
  let main_c : IVec S_ 1 := constantI S_ 1 1#1
  let main_v3 : IVec S_ 1 := (fun x v => Host.reduce IntOp.andi x v reducesTo_S64x512x128_S_d0_1_2 h_S_) main_v2 main_c
  let main_v4 : FVec F S64x2048x512 .f32 := Host.absf main_arg1
  let main_cst_0 : FVec F S_ .f32 := constant S_ .f32 0x7F800000#32
  let main_v5 : FVec F S64x2048x512 .f32 := broadcastInDim S64x2048x512 ![] bcast_S_S64x2048x512 main_cst_0
  let main_v6 : IVec S64x2048x512 1 := cmpf .olt main_v4 main_v5
  let main_c_1 : IVec S_ 1 := constantI S_ 1 1#1
  let main_v7 : IVec S_ 1 := (fun x v => Host.reduce IntOp.andi x v reducesTo_S64x2048x512_S_d0_1_2 h_S_) main_v6 main_c_1
  let main_v8 : IVec S_ 1 := andi main_v3 main_v7
  let main_v9 : FVec F S64x2048x256 .f32 := Host.absf main_arg2
  let main_cst_2 : FVec F S_ .f32 := constant S_ .f32 0x7F800000#32
  let main_v10 : FVec F S64x2048x256 .f32 := broadcastInDim S64x2048x256 ![] bcast_S_S64x2048x256 main_cst_2
  let main_v11 : IVec S64x2048x256 1 := cmpf .olt main_v9 main_v10
  let main_c_3 : IVec S_ 1 := constantI S_ 1 1#1
  let main_v12 : IVec S_ 1 := (fun x v => Host.reduce IntOp.andi x v reducesTo_S64x2048x256_S_d0_1_2 h_S_) main_v11 main_c_3
  let main_v13 : IVec S_ 1 := andi main_v8 main_v12
  let main_c_4 : IVec S_ 32 := constantI S_ 32 0#32
  let main_v14 : IVec S64x256 32 := broadcastInDim S64x256 ![] bcast_S_S64x256 main_c_4
  let main_v15 : IVec S64x256 1 := cmpi .sge main_arg3 main_v14
  let main_c_5 : IVec S_ 1 := constantI S_ 1 1#1
  fn_part1 (F := F) main_arg3 main_v13 main_v15 main_c_5
-- ==== Kernel.lean ====
abbrev S64x512x128 : Shape := ⟨3, ![64, 512, 128]⟩
abbrev S64x2048x512 : Shape := ⟨3, ![64, 2048, 512]⟩
abbrev S64x2048x256 : Shape := ⟨3, ![64, 2048, 256]⟩
abbrev S64x256 : Shape := ⟨2, ![64, 256]⟩
abbrev S_ : Shape := ⟨0, ![]⟩
abbrev S64x1x256 : Shape := ⟨3, ![64, 1, 256]⟩
abbrev S64x512x256 : Shape := ⟨3, ![64, 512, 256]⟩
abbrev S1x2048x512 : Shape := ⟨3, ![1, 2048, 512]⟩
abbrev S1x2048x256 : Shape := ⟨3, ![1, 2048, 256]⟩
abbrev S1x512x128 : Shape := ⟨3, ![1, 512, 128]⟩
abbrev S1x1x256 : Shape := ⟨3, ![1, 1, 256]⟩
abbrev S1x512x256 : Shape := ⟨3, ![1, 512, 256]⟩
abbrev S2048x512 : Shape := ⟨2, ![2048, 512]⟩
abbrev S2048x256 : Shape := ⟨2, ![2048, 256]⟩
abbrev S512x128 : Shape := ⟨2, ![512, 128]⟩
abbrev S1x256 : Shape := ⟨2, ![1, 256]⟩
abbrev S512 : Shape := ⟨1, ![512]⟩
abbrev S1x512 : Shape := ⟨2, ![1, 512]⟩
abbrev S512x1 : Shape := ⟨2, ![512, 1]⟩
abbrev S512x256 : Shape := ⟨2, ![512, 256]⟩
abbrev S128x256 : Shape := ⟨2, ![128, 256]⟩

abbrev nBuf : Space → Nat
  | .hbm => 14
  | .vmem => 10
  | .smem => 0
  | _ => 0

abbrev bufTy : (tb : Table) → Fin (tcTables nBuf tb) → BufTy
  | .hbm, ⟨0, _⟩ => ⟨S64x512x128, .f32⟩
  | .hbm, ⟨1, _⟩ => ⟨S64x2048x512, .f32⟩
  | .hbm, ⟨2, _⟩ => ⟨S64x2048x256, .f32⟩
  | .hbm, ⟨3, _⟩ => ⟨S64x256, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S64x256, .i32⟩
  | .hbm, ⟨8, _⟩ => ⟨S64x256, .i32⟩
  | .hbm, ⟨9, _⟩ => ⟨S_, .i32⟩
  | .hbm, ⟨10, _⟩ => ⟨S64x256, .i32⟩
  | .hbm, ⟨11, _⟩ => ⟨S64x256, .i32⟩
  | .hbm, ⟨12, _⟩ => ⟨S64x1x256, .i32⟩
  | .hbm, ⟨13, _⟩ => ⟨S64x512x256, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x256, .f32⟩
  | .local _ .vmem, ⟨3, _⟩ => ⟨S1x2048x256, .f32⟩
  | .local _ .vmem, ⟨4, _⟩ => ⟨S1x512x128, .f32⟩
  | .local _ .vmem, ⟨5, _⟩ => ⟨S1x512x128, .f32⟩
  | .local _ .vmem, ⟨6, _⟩ => ⟨S1x1x256, .i32⟩
  | .local _ .vmem, ⟨7, _⟩ => ⟨S1x1x256, .i32⟩
  | .local _ .vmem, ⟨8, _⟩ => ⟨S1x512x256, .f32⟩
  | .local _ .vmem, ⟨9, _⟩ => ⟨S1x512x256, .f32⟩
  | _, _ => ⟨S64x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S64x256 : S_.BroadcastsInDim S64x256 (![] : Fin 0 → Fin S64x256.rank)
  shapeCasts_S64x256_S64x1x256 : S64x256.ShapeCasts S64x1x256
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  bitsLt_bf16_f32 : FTy.bits .bf16 < FTy.bits .f32
  reduces_S2048x512_S512 : S2048x512.Reduces [0] S512
  shapeCasts_S512_S1x512 : S512.ShapeCasts S1x512
  transposes_S1x512_p1_0_S512x1 : S1x512.Transposes [1, 0] S512x1
  reduces_S512x128_S512 : S512x128.Reduces [1] S512
  shapeCasts_S512_S512x1 : S512.ShapeCasts S512x1
  iota_S128x256_d0_w32 : S128x256.Iotas .tc 32 [0]
  broadcasts_S1x256_S128x256 : S1x256.Broadcasts S128x256
  natLt_1_32 : 1 < 32
  broadcasts_S512x1_S512x256 : S512x1.Broadcasts S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  dot_S2048x512_S2048x256_S512x256_0_0_1_1_n_n_wf : DotDims.WF S2048x512 S2048x256 S512x256 [0] [0] [1] [1] [] []
  dot_S512x128_S128x256_S512x256_1_0_0_1_n_n_wf : DotDims.WF S512x128 S128x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S64x2048x512.size a
  hwx0_0 : ∀ i : grid0.Coords, EltTy.bits .f32 = 32 ∨ (Rect.block (s := S64x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S64x2048x256.size a
  hwx0_1 : ∀ i : grid0.Coords, EltTy.bits .f32 = 32 ∨ (Rect.block (s := S64x2048x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S64x512x128.size a
  hwx0_2 : ∀ i : grid0.Coords, EltTy.bits .f32 = 32 ∨ (Rect.block (s := S64x512x128) S1x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S64x1x256.size a
  hwx0_3 : ∀ i : grid0.Coords, EltTy.bits .i32 = 32 ∨ (Rect.block (s := S64x1x256) S1x1x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x256.size a ≤ S64x512x256.size a
  hwx0_4 : ∀ i : grid0.Coords, EltTy.bits .f32 = 32 ∨ (Rect.block (s := S64x512x256) S1x512x256.size (cc0_transform_4 i) (hinb0_4 i)).WholeWords (EltTy.packing .f32)

variable [Facts₀]

def dot_S2048x512_S2048x256_S512x256_0_0_1_1_n_n : DotDims S2048x512 S2048x256 S512x256 where
  lhsContracting := [0]
  rhsContracting := [0]
  lhsNonContracting := [1]
  rhsNonContracting := [1]
  lhsBatch := []
  rhsBatch := []
  wf := dot_S2048x512_S2048x256_S512x256_0_0_1_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf

abbrev win0_0 : Pipeline.Window sig grid0 :=
  Pipeline.Window.ofSpec (Memref.whole main_arg1) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x512x128 : Shape := ⟨3, ![64, 512, 128]⟩
abbrev S64x2048x512 : Shape := ⟨3, ![64, 2048, 512]⟩
abbrev S64x2048x256 : Shape := ⟨3, ![64, 2048, 256]⟩
abbrev S64x256 : Shape := ⟨2, ![64, 256]⟩
abbrev S_ : Shape := ⟨0, ![]⟩
abbrev S64x512 : Shape := ⟨2, ![64, 512]⟩
abbrev S64x512x256 : Shape := ⟨3, ![64, 512, 256]⟩
abbrev S64x512x1 : Shape := ⟨3, ![64, 512, 1]⟩
abbrev S64x1x256 : Shape := ⟨3, ![64, 1, 256]⟩
abbrev S64x512x256x1 : Shape := ⟨4, ![64, 512, 256, 1]⟩
abbrev S1 : Shape := ⟨1, ![1]⟩
abbrev S1x1x1x1 : Shape := ⟨4, ![1, 1, 1, 1]⟩

abbrev nBuf : Space → Nat
  | .hbm => 86
  | .vmem => 0
  | .smem => 0
  | _ => 0

abbrev bufTy : (tb : Table) → Fin (tcTables nBuf tb) → BufTy
  | .hbm, ⟨0, _⟩ => ⟨S64x512x128, .f32⟩
  | .hbm, ⟨1, _⟩ => ⟨S64x2048x512, .f32⟩
  | .hbm, ⟨2, _⟩ => ⟨S64x2048x256, .f32⟩
  | .hbm, ⟨3, _⟩ => ⟨S64x256, .i32⟩
  | .hbm, ⟨4, _⟩ => ⟨S_, .f32⟩
  | .hbm, ⟨5, _⟩ => ⟨S64x2048x512, .f32⟩
  | .hbm, ⟨6, _⟩ => ⟨S64x2048x512, .f32⟩
  | .hbm, ⟨7, _⟩ => ⟨S64x2048x512, .f32⟩
  | .hbm, ⟨8, _⟩ => ⟨S64x2048x512, .f32⟩
  | .hbm, ⟨9, _⟩ => ⟨S64x2048x512, .i1⟩
  | .hbm, ⟨10, _⟩ => ⟨S64x2048x512, .f32⟩
  | .hbm, ⟨11, _⟩ => ⟨S64x2048x512, .f32⟩
  | .hbm, ⟨12, _⟩ => ⟨S64x2048x512, .f32⟩
  | .hbm, ⟨13, _⟩ => ⟨S64x2048x512, .f32⟩
  | .hbm, ⟨14, _⟩ => ⟨S64x2048x512, .f32⟩
  | .hbm, ⟨15, _⟩ => ⟨S64x2048x512, .f32⟩
  | .hbm, ⟨16, _⟩ => ⟨S64x2048x512, .f32⟩
  | .hbm, ⟨17, _⟩ => ⟨S64x2048x512, .f32⟩
  | .hbm, ⟨18, _⟩ => ⟨S_, .f32⟩
  | .hbm, ⟨19, _⟩ => ⟨S64x512, .f32⟩
  | .hbm, ⟨20, _⟩ => ⟨S_, .f32⟩
  | .hbm, ⟨21, _⟩ => ⟨S64x512, .f32⟩
  | .hbm, ⟨22, _⟩ => ⟨S64x512, .f32⟩
  | .hbm, ⟨23, _⟩ => ⟨S64x512x256, .f32⟩
  | .hbm, ⟨24, _⟩ => ⟨S_, .f32⟩
  | .hbm, ⟨25, _⟩ => ⟨S64x512x256, .f32⟩
  | .hbm, ⟨26, _⟩ => ⟨S64x512x256, .f32⟩
  | .hbm, ⟨27, _⟩ => ⟨S64x512x1, .f32⟩
  | .hbm, ⟨28, _⟩ => ⟨S64x512x256, .f32⟩
  | .hbm, ⟨29, _⟩ => ⟨S64x512x256, .f32⟩
  | .hbm, ⟨30, _⟩ => ⟨S_, .f32⟩
  | .hbm, ⟨31, _⟩ => ⟨S64x512x128, .f32⟩
  | .hbm, ⟨32, _⟩ => ⟨S64x512x128, .f32⟩
  | .hbm, ⟨33, _⟩ => ⟨S64x512x128, .f32⟩
  | .hbm, ⟨34, _⟩ => ⟨S64x512x128, .f32⟩
  | .hbm, ⟨35, _⟩ => ⟨S64x512x128, .i1⟩
  | .hbm, ⟨36, _⟩ => ⟨S64x512x128, .f32⟩
  | .hbm, ⟨37, _⟩ => ⟨S64x512x128, .f32⟩
  | .hbm, ⟨38, _⟩ => ⟨S64x512x128, .f32⟩
  | .hbm, ⟨39, _⟩ => ⟨S64x512x128, .f32⟩
  | .hbm, ⟨40, _⟩ => ⟨S64x512x128, .f32⟩
  | .hbm, ⟨41, _⟩ => ⟨S64x512x128, .f32⟩
  | .hbm, ⟨42, _⟩ => ⟨S64x512x128, .f32⟩
  | .hbm, ⟨43, _⟩ => ⟨S64x512x128, .f32⟩
  | .hbm, ⟨44, _⟩ => ⟨S_, .f32⟩
  | .hbm, ⟨45, _⟩ => ⟨S64x512, .f32⟩
  | .hbm, ⟨46, _⟩ => ⟨S_, .f32⟩
  | .hbm, ⟨47, _⟩ => ⟨S64x512, .f32⟩
  | .hbm, ⟨48, _⟩ => ⟨S64x512, .f32⟩
  | .hbm, ⟨49, _⟩ => ⟨S64x1x256, .i32⟩
  | .hbm, ⟨50, _⟩ => ⟨S64x512x256, .i32⟩
  | .hbm, ⟨51, _⟩ => ⟨S_, .i32⟩
  | .hbm, ⟨52, _⟩ => ⟨S64x512x256, .i32⟩
  | .hbm, ⟨53, _⟩ => ⟨S64x512x256, .i1⟩
  | .hbm, ⟨54, _⟩ => ⟨S_, .i32⟩
  | .hbm, ⟨55, _⟩ => ⟨S64x512x256, .i32⟩
  | .hbm, ⟨56, _⟩ => ⟨S64x512x256, .i32⟩
  | .hbm, ⟨57, _⟩ => ⟨S64x512x256, .i32⟩
  | .hbm, ⟨58, _⟩ => ⟨S64x512x256x1, .i32⟩
  | .hbm, ⟨59, _⟩ => ⟨S1, .i32⟩
  | .hbm, ⟨60, _⟩ => ⟨S_, .i32⟩
  | .hbm, ⟨61, _⟩ => ⟨S64x512x256x1, .i32⟩
  | .hbm, ⟨62, _⟩ => ⟨S64x512x256x1, .i1⟩
  | .hbm, ⟨63, _⟩ => ⟨S1x1x1x1, .i32⟩
  | .hbm, ⟨64, _⟩ => ⟨S64x512x256x1, .i32⟩
  | .hbm, ⟨65, _⟩ => ⟨S64x512x256x1, .i1⟩
  | .hbm, ⟨66, _⟩ => ⟨S64x512x256x1, .i1⟩
  | .hbm, ⟨67, _⟩ => ⟨S_, .i1⟩
  | .hbm, ⟨68, _⟩ => ⟨S64x512x256, .i1⟩
  | .hbm, ⟨69, _⟩ => ⟨S64x512x256, .f32⟩
  | .hbm, ⟨70, _⟩ => ⟨S_, .f32⟩
  | .hbm, ⟨71, _⟩ => ⟨S64x512x256, .f32⟩
  | .hbm, ⟨72, _⟩ => ⟨S64x512x256, .f32⟩
  | .hbm, ⟨73, _⟩ => ⟨S64x512x1, .f32⟩
  | .hbm, ⟨74, _⟩ => ⟨S_, .f32⟩
  | .hbm, ⟨75, _⟩ => ⟨S64x512x256, .f32⟩
  | .hbm, ⟨76, _⟩ => ⟨S64x512x256, .f32⟩
  | .hbm, ⟨77, _⟩ => ⟨S64x512x256, .f32⟩
  | .hbm, ⟨78, _⟩ => ⟨S64x512x256, .f32⟩
  | .hbm, ⟨79, _⟩ => ⟨S_, .f32⟩
  | .hbm, ⟨80, _⟩ => ⟨S64x512x256, .f32⟩
  | .hbm, ⟨81, _⟩ => ⟨S64x512x256, .f32⟩
  | .hbm, ⟨82, _⟩ => ⟨S_, .f32⟩
  | .hbm, ⟨83, _⟩ => ⟨S64x512x256, .f32⟩
  | .hbm, ⟨84, _⟩ => ⟨S64x512x256, .f32⟩
  | .hbm, ⟨85, _⟩ => ⟨S64x512x256, .f32⟩
  | _, _ => ⟨S64x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_call1_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_v10 : Ref sig .tc := ⟨.hbm, 43, rfl⟩
abbrev main_cst_2 : Ref sig .tc := ⟨.hbm, 44, rfl⟩
abbrev main_v11 : Ref sig .tc := ⟨.hbm, 45, rfl⟩
abbrev main_cst_3 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_cst : Ref sig .tc := ⟨.hbm, 70, rfl⟩
abbrev main_call2_v14 : Ref sig .tc := ⟨.hbm, 71, rfl⟩
abbrev main_v16 : Ref sig .tc := ⟨.hbm, 72, rfl⟩
abbrev main_v17 : Ref sig .tc := ⟨.hbm, 73, rfl⟩
abbrev main_cst_4 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_cst_5 : Ref sig .tc := ⟨.hbm, 79, rfl⟩
abbrev main_v22 : Ref sig .tc := ⟨.hbm, 80, rfl⟩
abbrev main_v23 : Ref sig .tc := ⟨.hbm, 81, rfl⟩
abbrev main_cst_6 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩

abbrev nD : Nat := 1
abbrev τ : Topo := Topo.v7x

variable {F : FTy → Type} [FloatOps F]

class Facts₀ : Prop where
  bcast_S_S64x2048x512 : S_.BroadcastsInDim S64x2048x512 (![] : Fin 0 → Fin S64x2048x512.rank)
  reducesTo_S64x2048x512_S64x512_d1 : S64x2048x512.ReducesTo [1] S64x512
  h_S_ : 0 < S_.numel
  bcast_S_S64x512 : S_.BroadcastsInDim S64x512 (![] : Fin 0 → Fin S64x512.rank)
  bcast_S_S64x512x256 : S_.BroadcastsInDim S64x512x256 (![] : Fin 0 → Fin S64x512x256.rank)
  bcast_S64x512_S64x512x1_0_1 : S64x512.BroadcastsInDim S64x512x1 (![0, 1] : Fin 2 → Fin S64x512x1.rank)
  bcast_S64x512x1_S64x512x256_0_1_2 : S64x512x1.BroadcastsInDim S64x512x256 (![0, 1, 2] : Fin 3 → Fin S64x512x256.rank)
  bcast_S_S64x512x128 : S_.BroadcastsInDim S64x512x128 (![] : Fin 0 → Fin S64x512x128.rank)
  reducesTo_S64x512x128_S64x512_d2 : S64x512x128.ReducesTo [2] S64x512
  bcast_S64x256_S64x1x256_0_2 : S64x256.BroadcastsInDim S64x1x256 (![0, 2] : Fin 2 → Fin S64x1x256.rank)
  bcast_S64x1x256_S64x512x256_0_1_2 : S64x1x256.BroadcastsInDim S64x512x256 (![0, 1, 2] : Fin 3 → Fin S64x512x256.rank)
  shapeCasts_S64x512x256_S64x512x256x1 : S64x512x256.ShapeCasts S64x512x256x1
  bcast_S_S64x512x256x1 : S_.BroadcastsInDim S64x512x256x1 (![] : Fin 0 → Fin S64x512x256x1.rank)
  bcast_S1_S1x1x1x1_3 : S1.BroadcastsInDim S1x1x1x1 (![3] : Fin 1 → Fin S1x1x1x1.rank)
  bcast_S1x1x1x1_S64x512x256x1_0_1_2_3 : S1x1x1x1.BroadcastsInDim S64x512x256x1 (![0, 1, 2, 3] : Fin 4 → Fin S64x512x256x1.rank)
  reducesTo_S64x512x256x1_S64x512x256_d3 : S64x512x256x1.ReducesTo [3] S64x512x256
  dot_S64x2048x512_S64x2048x256_S64x512x256_1_1_2_2_0_0_wf : DotDims.WF S64x2048x512 S64x2048x256 S64x512x256 [1] [1] [2] [2] [0] [0]
  gather_S64x512x128_S64x512x256x1_S64x512x256_n_2_01_01_2_3_111_wf : GatherDims.WF S64x512x128 S64x512x256x1 S64x512x256 [] [2] [0, 1] [2] [0, 1] 3 ![1, 1, 1]

variable [Facts₀]

def dot_S64x2048x512_S64x2048x256_S64x512x256_1_1_2_2_0_0 : DotDims S64x2048x512 S64x2048x256 S64x512x256 where
  lhsContracting := [1]
  rhsContracting := [1]
  lhsNonContracting := [2]
  rhsNonContracting := [2]
  lhsBatch := [0]
  rhsBatch := [0]
  wf := dot_S64x2048x512_S64x2048x256_S64x512x256_1_1_2_2_0_0_wf
def gather_S64x512x128_S64x512x256x1_S64x512x256_n_2_01_01_2_3_111 : GatherDims S64x512x128 S64x512x256x1 S64x512x256 where
  offsetDims := []
  collapsedSliceDims := [2]
  operandBatchingDims := [0, 1]
  startIndicesBatchingDims := [0, 1]
  startIndexMap := [2]
  indexVectorDim := 3
  sliceSizes := ![1, 1, 1]
  wf := gather_S64x512x128_S64x512x256x1_S64x512x256_n_2_01_01_2_3_111_wf

class Facts : Prop extends Facts₀ where

variable [Facts]
-- ==== Proof.CostSpec.lean ====
/-
  The cost matrix as ONE function of the four argument arrays, on the extended reals.

  For batch `b`, query `q` and target group `g`:

    cost[b,q,g] = ( (Σ_p softplus(attw[b,p,q])) · 1/2048 − (Σ_p attw[b,p,q] · onehot[b,p,g]) · 1/2048 )
                + ( (Σ_c softplus(logits[b,q,c])) · 1/128 − logits[b,q,ids[b,g]] · 1/128 )

  with `softplus x = max x 0 + log (1 + e^{-|x|})`. Both programs compute this entry: one divides the sums by
  `2048` and `128`, the other multiplies them by the dyadic words `2⁻¹¹` and `2⁻⁷`, which on every extended real is
  the same product; one reads the class column out of the logits, the other sums the row against an indicator of
  the class. Nothing here needs a finite input: only commutative sums, `x − 0 = x`, `0 − y = −y` and `y · 0 = 0`,
  which hold on all of `[-∞, +∞]`.
-/
import Idealize.ShloMosaic.PureOps.Ideal
import Idealize.ShloMosaic.PureOps.Ideal.Laws
import Idealize.ShloMosaic.Lib.ValueIdx

noncomputable section

namespace Cert.Cost

open Idealize.ShloMosaic Idealize.ShloMosaic.ValueIdx

/-! ## The words the two programs spell, as the reals they denote -/

theorem ofBits_one : Ideal.ofBits .f32 0x3F800000#32 = 1 := by
  simp [Ideal.ofBits, Ideal.ieee, -EReal.coe_mul]; norm_num

theorem ofBits_2048 : Ideal.ofBits .f32 0x45000000#32 = ((2048 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_inv2048 : Ideal.ofBits .f32 0x3A000000#32 = ((1 / 2048 : ℝ) : EReal) := by
  simp [Ideal.ofBits, Ideal.ieee, -EReal.coe_mul]; norm_num

theorem ofBits_inv128 : Ideal.ofBits .f32 0x3C000000#32 = ((1 / 128 : ℝ) : EReal) := by
  simp [Ideal.ofBits, Ideal.ieee, -EReal.coe_mul]; norm_num

/-! ## One entry -/

/-- `softplus` of one extended real: `max x 0 + log (1 + e^{-|x|})`, with `|x| = max x (−x)`. -/
def sp (x : EReal) : EReal := max x 0 + Ideal.log1p (Ideal.exp (-(max x (-x))))

/-- The class an id word names: the word read as a signed integer, clamped into the 128 classes. -/
def cls (w : BitVec 32) : Fin 128 := ⟨min w.toInt.toNat 127, by omega⟩

/-- One entry of the cost matrix from the column `aw` of attention weights of its query, the column `oh` of
    grouping targets of its group, the row `lg` of activity logits of its query and the id word of its group. -/
def entry (aw oh : Fin 2048 → EReal) (lg : Fin 128 → EReal) (id : BitVec 32) : EReal :=
  ((∑ p : Fin 2048, sp (aw p)) * ((1 / 2048 : ℝ) : EReal) - (∑ p : Fin 2048, aw p * oh p) * ((1 / 2048 : ℝ) : EReal))
    + ((∑ c : Fin 128, sp (lg c)) * ((1 / 128 : ℝ) : EReal) - lg (cls id) * ((1 / 128 : ℝ) : EReal))

/-! ## The two spellings of softplus on one element -/

/-- The guarded spelling with an ORDERED "not equal" of `x − 0` with itself and `0 − |x − 0|` under the exponential:
    nothing differs from itself on the extended reals, so the guard never fires. -/
theorem sp_of_one (x : EReal) :
    Scalar.select (Ideal.cmp .one (x - 0) (x - 0)) (x + 0)
      (max x 0 + Ideal.log1p (Ideal.exp (0 - max (x - 0) (-(x - 0))))) = sp x := by
  have h : Ideal.cmp .one (x - 0) (x - 0) = 0#1 := by simp [Ideal.cmp]
  rw [h, select_zero, sub_zero, zero_sub]; rfl

/-- The guarded spelling with an UNORDERED "not equal" and a negation of `|x − 0|`: the same function. -/
theorem sp_of_une (x : EReal) :
    Scalar.select (Ideal.cmp .une (x - 0) (x - 0)) (x + 0)
      (max x 0 + Ideal.log1p (Ideal.exp (-(max (x - 0) (-(x - 0)))))) = sp x := by
  have h : Ideal.cmp .une (x - 0) (x - 0) = 0#1 := by simp [Ideal.cmp]
  rw [h, select_zero, sub_zero]; rfl

/-- A quotient by the real `2048` is the product with `1/2048`, on every extended real. -/
theorem div_2048 (x : EReal) : Ideal.div x ((2048 : ℝ) : EReal) = x * ((1 / 2048 : ℝ) : EReal) :=
  Ideal.div_coe (by norm_num) x

/-- A quotient by the real `128` is the product with `1/128`, on every extended real. -/
theorem div_128 (x : EReal) : Ideal.div x ((128 : ℝ) : EReal) = x * ((1 / 128 : ℝ) : EReal) :=
  Ideal.div_coe (by norm_num) x

/-! ## The whole array -/

abbrev SLogits : Shape := ⟨3, ![64, 512, 128]⟩
abbrev SAttw : Shape := ⟨3, ![64, 2048, 512]⟩
abbrev SOneHot : Shape := ⟨3, ![64, 2048, 256]⟩
abbrev SIds : Shape := ⟨2, ![64, 256]⟩
abbrev SCost : Shape := ⟨3, ![64, 512, 256]⟩

/-- The cost tensor `[64, 512, 256]` of the four argument arrays, entry by entry. -/
def cost (lg : SLogits.Idx → EReal) (aw : SAttw.Idx → EReal) (oh : SOneHot.Idx → EReal) (ids : SIds.Idx → BitVec 32) :
    SCost.Idx → EReal := fun i =>
  entry (fun p => aw (ix3 (i 0) p (i 1))) (fun p => oh (ix3 (i 0) p (i 2))) (fun c => lg (ix3 (i 0) (i 1) c))
    (ids (ix2 (i 0) (i 2)))

end Cert.Cost

end
-- ==== Proof.PreIds.lean ====
/-
  The precondition, decoded: every id word is a class, `0 ≤ id < 128` as a signed integer.

  The printed predicate is a conjunction of five `all`-reductions; the last two say, of every entry of the id array,
  `id ≥ 0` and `id < 128` (signed compares against broadcast constants). An `and`-reduction into one index that is 1
  had a 1 at every index of its operand.
-/
import proofs.«424230_j51118700757462_3_alg».proof.Defs
import Idealize.ShloMosaic.Lib.ReduceAll
import Idealize.ShloMosaic.Lib.Affine
import Idealize.ShloMosaic.Lib.ValueIdx

noncomputable section

namespace Cert.PreIds

open Idealize.ShloMosaic Idealize.ShloMosaic.ValueIdx Idealize.SL.Sem

instance : Subsingleton Cert.Pre_finite_inputs.S_.Idx := ⟨fun a b => funext fun d => d.elim0⟩

/-- The printed predicate at all ones gives both bounds at every entry of its integer argument, at any float family. -/
theorem range_of_fn {F : FTy → Type} [FloatOps F] [Cert.Pre_finite_inputs.Facts]
    (a0 : FVec F Cert.Pre_finite_inputs.S64x512x128 .f32) (a1 : FVec F Cert.Pre_finite_inputs.S64x2048x512 .f32)
    (a2 : FVec F Cert.Pre_finite_inputs.S64x2048x256 .f32) (ids : IVec Cert.Pre_finite_inputs.S64x256 32)
    (h : Cert.Pre_finite_inputs.fn (F := F) a0 a1 a2 ids = fun _ => 1#1) (j : Cert.Pre_finite_inputs.S64x256.Idx) :
    0 ≤ (ids j).toInt ∧ (ids j).toInt < 128 := by
  have e := congrFun h ix0
  dsimp only [Cert.Pre_finite_inputs.fn, Cert.Pre_finite_inputs.fn_part1] at e
  obtain ⟨h12, h2⟩ := IntOp.andi_eq_one.mp (show IntOp.andi _ _ = 1#1 from e)
  obtain ⟨-, h1⟩ := IntOp.andi_eq_one.mp (show IntOp.andi _ _ = 1#1 from h12)
  have g1 : IntOp.cmpi .sge (ids j) 0#32 = 1#1 := Host.reduce_andi_all _ _ _ _ ix0 h1 j
  have g2 : IntOp.cmpi .slt (ids j) 128#32 = 1#1 := Host.reduce_andi_all _ _ _ _ ix0 h2 j
  rw [IntOp.cmpi_sge] at g1
  rw [IntOp.cmpi_slt] at g2
  have z0 : (0#32 : BitVec 32).toInt = 0 := by decide
  have z1 : (128#32 : BitVec 32).toInt = 128 := by decide
  rw [z0] at g1
  rw [z1] at g2
  exact ⟨g1, g2⟩

end Cert.PreIds

end
-- ==== Proof.KernelEntry.lean ====
/-
  One entry of the block the kernel body stores, as the specification's entry of the body's four loaded blocks.
-/
import proofs.«424230_j51118700757462_3_alg».proof.Proof.Gen.KernelIdeal.Frame
import proofs.«424230_j51118700757462_3_alg».proof.Proof.CostSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

namespace Entry

theorem hz3 : (![0, 0, 0] : Fin 3 → Nat) = fun _ => 0 := funext fun a => by fin_cases a <;> rfl

/-! ## The guarded softplus at one element -/

/-- The guarded spelling of softplus, elementwise on a vector of any shape, reads `Cost.sp` of the element. -/
theorem softplus_one_apply {s : Shape} (v : FVec Ideal s .f32) (i : s.Idx) :
    select (cmpf .one (subf v (broadcast s (FloatOps.ofBits (F := Ideal) .f32 0x00000000#32))) (subf v (broadcast s (FloatOps.ofBits (F := Ideal) .f32 0x00000000#32))))
      (addf v (broadcast s (FloatOps.ofBits (F := Ideal) .f32 0x00000000#32)))
      (addf (maximumf v (broadcast s (FloatOps.ofBits (F := Ideal) .f32 0x00000000#32)))
        (log1p (exp (subf (broadcast s (FloatOps.ofBits (F := Ideal) .f32 0x00000000#32)) (absf (subf v (broadcast s (FloatOps.ofBits (F := Ideal) .f32 0x00000000#32)))))))) i
    = Cost.sp (v i) := by
  show Scalar.select (Ideal.cmp .one (v i - Ideal.ofBits .f32 0x00000000#32) (v i - Ideal.ofBits .f32 0x00000000#32)) (v i + Ideal.ofBits .f32 0x00000000#32)
     (max (v i) (Ideal.ofBits .f32 0x00000000#32) + Ideal.log1p (Ideal.exp (Ideal.ofBits .f32 0x00000000#32 - max (v i - Ideal.ofBits .f32 0x00000000#32) (-(v i - Ideal.ofBits .f32 0x00000000#32))))) = _
  rw [Ideal.ofBits_zero_f32]
  exact Cost.sp_of_one (v i)

/-! ## The loaded blocks with their unit axis dropped -/

theorem pay2_at (x0 : Vec Ideal S1x2048x512 .f32) (p : Fin 2048) (q : Fin 512) :
    k0_pay2 (F := Ideal) x0 (ix2 p q) = x0 (ix3 (0 : Fin 1) p q) :=
  shapeCast_1ab_ab_apply x0 shapeCasts_S1x2048x512_S2048x512 p q

theorem pay3_at (x2 : Vec Ideal S1x512x128 .f32) (q : Fin 512) (c : Fin 128) :
    k0_pay3 (F := Ideal) x2 (ix2 q c) = x2 (ix3 (0 : Fin 1) q c) :=
  shapeCast_1ab_ab_apply x2 shapeCasts_S1x512x128_S512x128 q c

theorem pay4_at (x3 : Vec Ideal S1x1x256 .i32) (g : Fin 256) :
    k0_pay4 (F := Ideal) x3 (ix2 (0 : Fin 1) g) = x3 (ix3 (0 : Fin 1) (0 : Fin 1) g) :=
  shapeCast_1ab_ab_apply x3 shapeCasts_S1x1x256_S1x256 (0 : Fin 1) g

/-! ## The column sums of the attention block -/

/-- A sum over axis 0 of a `[2048, 512]` vector, read at column `q`. -/
theorem sum_axis0 (src : FVec Ideal S2048x512 .f32) (hφ : FKind.Formats .f32)
    (hacc : (0x00000000#32 : BitVec 32) = FKind.add.neutral .f32 hφ) (q : Fin 512) :
    multiReduction .add [0] S512 src 0x00000000#32 reduces_S2048x512_S512 hφ hacc (ix1 q) = ∑ p : Fin 2048, src (ix2 p q) := by
  refine (Ideal.multiReduction_add_single src 0x00000000#32 reduces_S2048x512_S512 hφ hacc (ix1 q)).trans ?_
  refine Finset.sum_congr rfl fun p _ => congrArg src ?_
  funext a
  apply Fin.ext
  match a with
  | ⟨0, _⟩ => rfl
  | ⟨1, _⟩ => rfl

/-- The softplus column sum of the attention block, scaled by `2⁻¹¹`, at query `q`. -/
theorem pay5_at (x0 : Vec Ideal S1x2048x512 .f32) (q : Fin 512) :
    k0_pay5 (F := Ideal) x0 (ix2 q (0 : Fin 1)) = (∑ p : Fin 2048, Cost.sp (x0 (ix3 (0 : Fin 1) p q))) * ((1/2048 : ℝ) : EReal) := by
  unfold k0_pay5
  refine (transpose_ix2_apply _ transposes_S1x512_p1_0_S512x1 q (0 : Fin 1)).trans ?_
  refine (mulf_apply _ _ _).trans ?_
  refine congrArg₂ (· * ·) ?_ Cost.ofBits_inv2048
  refine (shapeCast_a_1a_apply _ shapeCasts_S512_S1x512 (0 : Fin 1) q).trans ?_
  refine (sum_axis0 _ _ _ q).trans ?_
  exact Finset.sum_congr rfl fun p _ => (softplus_one_apply (k0_pay2 x0) (ix2 p q)).trans (congrArg Cost.sp (pay2_at x0 p q))

/-! ## The product of the attention block's transpose with the grouping targets -/

theorem lhs_pay6_0 (i : S512x256.Idx) (k : dot_S2048x512_S2048x256_S512x256_0_0_1_1_n_n.contr.Idx) :
    (dot_S2048x512_S2048x256_S512x256_0_0_1_1_n_n.lhsIdx i k 0).val = (k ⟨0, by decide⟩).val :=
  dot_S2048x512_S2048x256_S512x256_0_0_1_1_n_n.lhsIdx_val_of_single rfl i k
theorem lhs_pay6_1 (i : S512x256.Idx) (k : dot_S2048x512_S2048x256_S512x256_0_0_1_1_n_n.contr.Idx) :
    (dot_S2048x512_S2048x256_S512x256_0_0_1_1_n_n.lhsIdx i k 1).val = (i 0).val := by
  unfold DotDims.lhsIdx
  rw [dif_neg (show ¬(1 : Fin S2048x512.rank) ∈ dot_S2048x512_S2048x256_S512x256_0_0_1_1_n_n.lhsBatch by decide), dif_pos (show (1 : Fin S2048x512.rank) ∈ dot_S2048x512_S2048x256_S512x256_0_0_1_1_n_n.lhsNonContracting by decide)]
  rfl
theorem rhs_pay6_0 (i : S512x256.Idx) (k : dot_S2048x512_S2048x256_S512x256_0_0_1_1_n_n.contr.Idx) :
    (dot_S2048x512_S2048x256_S512x256_0_0_1_1_n_n.rhsIdx i k 0).val = (k ⟨0, by decide⟩).val :=
  dot_S2048x512_S2048x256_S512x256_0_0_1_1_n_n.rhsIdx_val_of_single rfl i k
theorem rhs_pay6_1 (i : S512x256.Idx) (k : dot_S2048x512_S2048x256_S512x256_0_0_1_1_n_n.contr.Idx) :
    (dot_S2048x512_S2048x256_S512x256_0_0_1_1_n_n.rhsIdx i k 1).val = (i 1).val := by
  unfold DotDims.rhsIdx
  rw [dif_neg (show ¬(1 : Fin S2048x256.rank) ∈ dot_S2048x512_S2048x256_S512x256_0_0_1_1_n_n.rhsBatch by decide), dif_pos (show (1 : Fin S2048x256.rank) ∈ dot_S2048x512_S2048x256_S512x256_0_0_1_1_n_n.rhsNonContracting by decide)]
  rfl

/-- A product contracting axis 0 of both operands into a zero accumulator, read at `(q, g)`. -/
theorem matmul6_at (A : FVec Ideal S2048x512 .bf16) (B : FVec Ideal S2048x256 .bf16) (q : Fin 512) (g : Fin 256) :
    matmul dot_S2048x512_S2048x256_S512x256_0_0_1_1_n_n none A B (constant (F := Ideal) S512x256 .f32 0x00000000#32) (ix2 q g)
      = ∑ p : Fin 2048, A (ix2 p q) * B (ix2 p g) := by
  refine (Ideal.matmul_constant_zero_apply dot_S2048x512_S2048x256_S512x256_0_0_1_1_n_n none A B (ix2 q g)).trans ?_
  rw [← Equiv.sum_comp (contrEquiv1 dot_S2048x512_S2048x256_S512x256_0_0_1_1_n_n 2048 rfl rfl).symm]
  refine Finset.sum_congr rfl fun k _ => ?_
  have hk := contrEquiv1_symm_val dot_S2048x512_S2048x256_S512x256_0_0_1_1_n_n 2048 rfl rfl k
  have el : dot_S2048x512_S2048x256_S512x256_0_0_1_1_n_n.lhsIdx (ix2 q g) ((contrEquiv1 dot_S2048x512_S2048x256_S512x256_0_0_1_1_n_n 2048 rfl rfl).symm k) = ix2 k q := funext fun a => Fin.ext (by
    match a with
    | ⟨0, _⟩ => exact (lhs_pay6_0 _ _).trans hk
    | ⟨1, _⟩ => exact lhs_pay6_1 _ _)
  have er : dot_S2048x512_S2048x256_S512x256_0_0_1_1_n_n.rhsIdx (ix2 q g) ((contrEquiv1 dot_S2048x512_S2048x256_S512x256_0_0_1_1_n_n 2048 rfl rfl).symm k) = ix2 k g := funext fun a => Fin.ext (by
    match a with
    | ⟨0, _⟩ => exact (rhs_pay6_0 _ _).trans hk
    | ⟨1, _⟩ => exact rhs_pay6_1 _ _)
  rw [el, er]

/-- The attention-weighted grouping targets, scaled by `2⁻¹¹`, at query `q` and group `g`. -/
theorem pay6_at (x0 : Vec Ideal S1x2048x512 .f32) (x1 : Vec Ideal S1x2048x256 .f32) (q : Fin 512) (g : Fin 256) :
    k0_pay6 (F := Ideal) x0 x1 (ix2 q g)
      = (∑ p : Fin 2048, x0 (ix3 (0 : Fin 1) p q) * x1 (ix3 (0 : Fin 1) p g)) * ((1/2048 : ℝ) : EReal) := by
  unfold k0_pay6
  refine (mulf_apply _ _ _).trans ?_
  refine congrArg₂ (· * ·) ?_ Cost.ofBits_inv2048
  refine (matmul6_at _ _ q g).trans ?_
  exact Finset.sum_congr rfl fun p _ => congrArg₂ (· * ·) (pay2_at x0 p q) (shapeCast_1ab_ab_apply x1 shapeCasts_S1x2048x256_S2048x256 p g)

/-! ## Keepdims column layouts -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `i`. -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The row sums of the logits block -/

/-- A sum over axis 1 of a `[512, 128]` vector, read at row `q`. -/
theorem sum_axis1 (src : FVec Ideal S512x128 .f32) (hφ : FKind.Formats .f32)
    (hacc : (0x00000000#32 : BitVec 32) = FKind.add.neutral .f32 hφ) (q : Fin 512) :
    multiReduction .add [1] S512 src 0x00000000#32 reduces_S512x128_S512 hφ hacc (ix1 q) = ∑ c : Fin 128, src (ix2 q c) := by
  refine (Ideal.multiReduction_add_single src 0x00000000#32 reduces_S512x128_S512 hφ hacc (ix1 q)).trans ?_
  refine Finset.sum_congr rfl fun c _ => congrArg src ?_
  funext a
  apply Fin.ext
  match a with
  | ⟨0, _⟩ => rfl
  | ⟨1, _⟩ => rfl

/-! ## The product of the logits block with the class indicator -/

theorem lhs_pay1_0 (i : S512x256.Idx) (k : dot_S512x128_S128x256_S512x256_1_0_0_1_n_n.contr.Idx) :
    (dot_S512x128_S128x256_S512x256_1_0_0_1_n_n.lhsIdx i k 0).val = (i 0).val := by
  unfold DotDims.lhsIdx
  rw [dif_neg (show ¬(0 : Fin S512x128.rank) ∈ dot_S512x128_S128x256_S512x256_1_0_0_1_n_n.lhsBatch by decide), dif_pos (show (0 : Fin S512x128.rank) ∈ dot_S512x128_S128x256_S512x256_1_0_0_1_n_n.lhsNonContracting by decide)]
  rfl
theorem lhs_pay1_1 (i : S512x256.Idx) (k : dot_S512x128_S128x256_S512x256_1_0_0_1_n_n.contr.Idx) :
    (dot_S512x128_S128x256_S512x256_1_0_0_1_n_n.lhsIdx i k 1).val = (k ⟨0, by decide⟩).val :=
  dot_S512x128_S128x256_S512x256_1_0_0_1_n_n.lhsIdx_val_of_single rfl i k
theorem rhs_pay1_0 (i : S512x256.Idx) (k : dot_S512x128_S128x256_S512x256_1_0_0_1_n_n.contr.Idx) :
    (dot_S512x128_S128x256_S512x256_1_0_0_1_n_n.rhsIdx i k 0).val = (k ⟨0, by decide⟩).val :=
  dot_S512x128_S128x256_S512x256_1_0_0_1_n_n.rhsIdx_val_of_single rfl i k
theorem rhs_pay1_1 (i : S512x256.Idx) (k : dot_S512x128_S128x256_S512x256_1_0_0_1_n_n.contr.Idx) :
    (dot_S512x128_S128x256_S512x256_1_0_0_1_n_n.rhsIdx i k 1).val = (i 1).val := by
  unfold DotDims.rhsIdx
  rw [dif_neg (show ¬(1 : Fin S128x256.rank) ∈ dot_S512x128_S128x256_S512x256_1_0_0_1_n_n.rhsBatch by decide), dif_pos (show (1 : Fin S128x256.rank) ∈ dot_S512x128_S128x256_S512x256_1_0_0_1_n_n.rhsNonContracting by decide)]
  rfl

/-- A plain `[512,128] × [128,256]` product into a zero accumulator, read at `(q, g)`. -/
theorem matmul1_at (A : FVec Ideal S512x128 .bf16) (B : FVec Ideal S128x256 .bf16) (q : Fin 512) (g : Fin 256) :
    matmul dot_S512x128_S128x256_S512x256_1_0_0_1_n_n none A B (constant (F := Ideal) S512x256 .f32 0x00000000#32) (ix2 q g)
      = ∑ c : Fin 128, A (ix2 q c) * B (ix2 c g) := by
  refine (Ideal.matmul_constant_zero_apply dot_S512x128_S128x256_S512x256_1_0_0_1_n_n none A B (ix2 q g)).trans ?_
  rw [← Equiv.sum_comp (contrEquiv1 dot_S512x128_S128x256_S512x256_1_0_0_1_n_n 128 rfl rfl).symm]
  refine Finset.sum_congr rfl fun k _ => ?_
  have hk := contrEquiv1_symm_val dot_S512x128_S128x256_S512x256_1_0_0_1_n_n 128 rfl rfl k
  have el : dot_S512x128_S128x256_S512x256_1_0_0_1_n_n.lhsIdx (ix2 q g) ((contrEquiv1 dot_S512x128_S128x256_S512x256_1_0_0_1_n_n 128 rfl rfl).symm k) = ix2 q k := funext fun a => Fin.ext (by
    match a with
    | ⟨0, _⟩ => exact lhs_pay1_0 _ _
    | ⟨1, _⟩ => exact (lhs_pay1_1 _ _).trans hk)
  have er : dot_S512x128_S128x256_S512x256_1_0_0_1_n_n.rhsIdx (ix2 q g) ((contrEquiv1 dot_S512x128_S128x256_S512x256_1_0_0_1_n_n 128 rfl rfl).symm k) = ix2 k g := funext fun a => Fin.ext (by
    match a with
    | ⟨0, _⟩ => exact (rhs_pay1_0 _ _).trans hk
    | ⟨1, _⟩ => exact rhs_pay1_1 _ _)
  rw [el, er]

/-! ## The class indicator -/

/-- The indicator of the class an id word names: `1` at the class whose number is the word, `0` elsewhere. -/
def ind (w : BitVec 32) (c : Fin 128) : EReal := if BitVec.ofNat 32 c.val = w then 1 else 0

/-- The widened, converted comparison of the class number along axis 0 with the broadcast id row, at `(c, g)`. -/
theorem onehot_at (v7 : IVec S1x256 32) (c : Fin 128) (g : Fin 256) :
    (sitofp (F := Ideal) .f32 (extui 32 (cmpi .eq (iota .tc S128x256 32 [0] iota_S128x256_d0_w32)
        (broadcastTo S128x256 v7 broadcasts_S1x256_S128x256)) natLt_1_32)) (ix2 c g)
      = ind (v7 (ix2 (0 : Fin 1) g)) c := by
  show (((((IntOp.cmpi .eq (iota .tc S128x256 32 [0] iota_S128x256_d0_w32 (ix2 c g))
      (broadcastTo S128x256 v7 broadcasts_S1x256_S128x256 (ix2 c g))).setWidth 32).toInt : ℤ) : ℝ) : EReal) = _
  rw [iota_single_apply .tc S128x256 32 0 iota_S128x256_d0_w32 (ix2 c g),
    broadcastTo_1b_ab_apply v7 broadcasts_S1x256_S128x256 c g]
  show ((((IntOp.cmpi .eq (BitVec.ofNat 32 c.val) (v7 (ix2 (0 : Fin 1) g))).setWidth 32).toInt : ℝ) : EReal) = _
  unfold ind
  by_cases h : BitVec.ofNat 32 c.val = v7 (ix2 (0 : Fin 1) g)
  · rw [if_pos h, IntOp.cmpi_eq.2 h]
    norm_num
  · rw [if_neg h, eq_zero_of_ne_one (fun h' => h (IntOp.cmpi_eq.1 h'))]
    norm_num

/-- The class of an id word in `[0, 128)` is the word's own number. -/
theorem cls_val (w : BitVec 32) (h0 : 0 ≤ w.toInt) (h1 : w.toInt < 128) : (Cost.cls w).val = w.toNat := by
  have hlt := w.isLt
  have hc := BitVec.toInt_eq_toNat_cond w
  show min w.toInt.toNat 127 = w.toNat
  split_ifs at hc <;> omega

/-- Against the indicator of a class in range a row's sum is the row's entry at that class: `x · 0 = 0` and
    `x · 1 = x` on every extended real. -/
theorem ind_sum (f : Fin 128 → EReal) (w : BitVec 32) (h0 : 0 ≤ w.toInt) (h1 : w.toInt < 128) :
    ∑ c : Fin 128, f c * ind w c = f (Cost.cls w) := by
  have hv := cls_val w h0 h1
  rw [Finset.sum_eq_single (Cost.cls w)]
  · unfold ind
    rw [if_pos (by rw [hv]; exact (BitVec.ofNat_toNat 32 w).trans (BitVec.setWidth_eq w)), mul_one]
  · intro c _ hc
    unfold ind
    rw [if_neg, mul_zero]
    intro h
    apply hc
    apply Fin.ext
    rw [hv, ← h, BitVec.toNat_ofNat]
    have := c.isLt
    omega
  · intro h; exact absurd (Finset.mem_univ _) h

/-! ## The stored block at an entry -/

/-- The guarded softplus of the logits block, assembled from its pieces, at `(q, c)`. -/
theorem row_softplus_at (x2 : Vec Ideal S1x512x128 .f32) (q : Fin 512) (c : Fin 128) :
    select (k0_pay9 (F := Ideal) x2) (k0_pay10 x2)
        (addf (k0_pay7 x2) (log1p (exp (subf (broadcast S512x128 (FloatOps.ofBits (F := Ideal) .f32 0x00000000#32)) (k0_pay11 x2))))) (ix2 q c)
      = Cost.sp (x2 (ix3 (0 : Fin 1) q c)) := by
  unfold k0_pay9 k0_pay10 k0_pay7 k0_pay11 k0_pay8
  exact (softplus_one_apply (k0_pay3 x2) (ix2 q c)).trans (congrArg Cost.sp (pay3_at x2 q c))

/-- The stored value at `(0, q, g)`, over the values the body read before it: the two halves with their unit
    factors, the logits half as a row sum and a sum against the class indicator. -/
theorem pay1_at (v5 : FVec Ideal S512x128 .f32) (v7 : IVec S1x256 32) (v27 : FVec Ideal S512x1 .f32) (v31 : FVec Ideal S512x256 .f32)
    (v33 : FVec Ideal S512x128 .f32) (v36 : IVec S512x128 1) (v38 v39 : FVec Ideal S512x128 .f32) (q : Fin 512) (g : Fin 256) :
    k0_pay1 (F := Ideal) v5 v7 v27 v31 v33 v36 v38 v39 (ix3 (0 : Fin 1) q g)
      = 1 * (v27 (ix2 q (0 : Fin 1)) - v31 (ix2 q g))
        + 1 * ((∑ c : Fin 128, select v36 v38 (addf v33 (log1p (exp (subf (broadcast S512x128 (FloatOps.ofBits (F := Ideal) .f32 0x00000000#32)) v39)))) (ix2 q c))
                  * ((1/128 : ℝ) : EReal)
               - (∑ c : Fin 128, v5 (ix2 q c) * ind (v7 (ix2 (0 : Fin 1) g)) c) * ((1/128 : ℝ) : EReal)) := by
  unfold k0_pay1
  refine (shapeCast_ab_1ab_apply _ shapeCasts_S512x256_S1x512x256 (0 : Fin 1) q g).trans ?_
  refine (addf_apply _ _ _).trans ?_
  refine congrArg₂ (· + ·) ?_ ?_
  · refine (mulf_apply _ _ _).trans ?_
    refine congrArg₂ (· * ·) Cost.ofBits_one ?_
    refine (subf_apply _ _ _).trans ?_
    refine congrArg₂ (· - ·) ?_ rfl
    exact broadcastTo_a1_ab_apply v27 broadcasts_S512x1_S512x256 q g
  · refine (mulf_apply _ _ _).trans ?_
    refine congrArg₂ (· * ·) Cost.ofBits_one ?_
    refine (subf_apply _ _ _).trans ?_
    refine congrArg₂ (· - ·) ?_ ?_
    · refine (broadcastTo_a1_ab_apply _ broadcasts_S512x1_S512x256 q g).trans ?_
      refine (mulf_apply _ _ _).trans ?_
      refine congrArg₂ (· * ·) ?_ Cost.ofBits_inv128
      refine (shapeCast_a_a1_apply _ shapeCasts_S512_S512x1 q (0 : Fin 1)).trans ?_
      exact sum_axis1 _ _ _ q
    · refine (mulf_apply _ _ _).trans ?_
      refine congrArg₂ (· * ·) ?_ Cost.ofBits_inv128
      refine (matmul1_at _ _ q g).trans ?_
      exact Finset.sum_congr rfl fun c _ => congrArg₂ (· * ·) rfl (onehot_at v7 c g)

end Entry

open Entry

/-- THE BODY'S STORE AT (q, g): for loaded blocks `x0` (attention weights `[1,2048,512]`), `x1` (grouping targets
    `[1,2048,256]`), `x2` (activity logits `[1,512,128]`) and `x3` (the id row `[1,1,256]`, its word at `g` a class in
    `[0,128)`), the stored block's entry at `(0, q, g)` is the specification's entry of column `q` of `x0`, column `g` of
    `x1`, row `q` of `x2` and the id word at `g`. -/
theorem out_entry (x0 : Vec Ideal S1x2048x512 .f32) (x1 : Vec Ideal S1x2048x256 .f32) (x2 : Vec Ideal S1x512x128 .f32)
    (x3 : Vec Ideal S1x1x256 .i32) (q : Fin 512) (g : Fin 256)
    (h0 : 0 ≤ (x3 (ix3 (0 : Fin 1) (0 : Fin 1) g) : BitVec 32).toInt)
    (h1 : (x3 (ix3 (0 : Fin 1) (0 : Fin 1) g) : BitVec 32).toInt < 128) :
    out0_4 (F := Ideal) x0 x1 x2 x3 (ix3 (0 : Fin 1) q g)
      = Cert.Cost.entry (fun p => x0 (ix3 (0 : Fin 1) p q)) (fun p => x1 (ix3 (0 : Fin 1) p g))
          (fun c => x2 (ix3 (0 : Fin 1) q c)) (x3 (ix3 (0 : Fin 1) (0 : Fin 1) g)) := by
  unfold out0_4
  rw [View.canon_unit_zero hz3]
  simp only [View.ld_unit_zero (S := S1x2048x512) hz3, View.ld_unit_zero (S := S1x2048x256) hz3,
    View.ld_unit_zero (S := S1x512x128) hz3, View.ld_unit_zero (S := S1x1x256) hz3]
  refine (pay1_at (k0_pay3 x2) (k0_pay4 (F := Ideal) x3) (k0_pay5 x0) (k0_pay6 x0 x1) (k0_pay7 x2) (k0_pay9 x2) (k0_pay10 x2)
    (k0_pay11 x2) q g).trans ?_
  unfold Cert.Cost.entry
  rw [one_mul, one_mul, pay5_at x0 q, pay6_at x0 x1 q g, pay4_at x3 g]
  refine congrArg₂ (· + ·) rfl (congrArg₂ (· - ·) (congrArg (· * _) ?_) (congrArg (· * _) ?_))
  · exact Finset.sum_congr rfl fun c _ => row_softplus_at x2 q c
  · refine (Finset.sum_congr rfl fun c _ => congrArg (· * _) (pay3_at x2 q c)).trans ?_
    exact ind_sum (fun c => x2 (ix3 (0 : Fin 1) q c)) _ h0 h1

end Cert.KernelIdeal.Body

end
-- ==== Proof.KernelArray.lean ====
/-
  The kernel's result array after the run is the specification's cost tensor.

  Grid point `t` is batch `t`: every window's block at `t` is the slice `[t, :, :]` of its array, so a block entry
  `(0, y, z)` is the array's entry `(t, y, z)`. The id array reaches the region clipped into `[0, 127]` and reshaped to
  `[64, 1, 256]`; on ids that are classes the clip is the identity. Point `t` therefore writes back slice `t` of the
  cost tensor, and the 64 slices cover the result array.
-/
import proofs.«424230_j51118700757462_3_alg».proof.Proof.Gen.KernelIdeal.Value
import proofs.«424230_j51118700757462_3_alg».proof.Proof.KernelEntry
import proofs.«424230_j51118700757462_3_alg».proof.Proof.CostSpec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Arr

open Cert.KernelIdeal Cert.KernelIdeal.Gen Cert.KernelIdeal.Value
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-- The id array as launched, on core `c`. -/
abbrev idsArr (c : Dev nD) : IVec S64x256 32 := m ((c : Thread nD τ).loc main_arg3)

/-- Every id word is a class: `0 ≤ id < 128`, signed. -/
def IdsInRange : Prop := ∀ (c : Dev nD) (j : S64x256.Idx), 0 ≤ (idsArr m c j).toInt ∧ (idsArr m c j).toInt < 128

/-! ## The id array as the region finds it -/

/-- Clipping a class into `[0, 127]` leaves it as it is. -/
theorem clip_class (w : BitVec 32) (h0 : 0 ≤ w.toInt) (h1 : w.toInt < 128) :
    IntOp.minsi 127#32 (IntOp.maxsi 0#32 w) = w := by
  have z0 : (0#32 : BitVec 32).toInt = 0 := by decide
  have z1 : (127#32 : BitVec 32).toInt = 127 := by decide
  have hmax : IntOp.maxsi 0#32 w = w := by
    unfold IntOp.maxsi
    rw [if_neg]
    rw [BitVec.slt_iff_toInt_lt, z0]; omega
  rw [hmax]
  unfold IntOp.minsi
  rw [if_neg]
  rw [BitVec.slt_iff_toInt_lt, z1]; omega

/-- The host operations before the region leave the clipped ids, reshaped to `[64, 1, 256]`, in the fourth window's array. -/
theorem V_ids (c : Dev nD) :
    (V m c main_v1 : S64x1x256.Idx → BitVec 32)
      = shapeCast S64x1x256 (minsi (broadcastInDim S64x256 ![] bcast_S_S64x256 (constantI S_ 32 127#32))
          (maxsi (broadcastInDim S64x256 ![] bcast_S_S64x256 (constantI S_ 32 0#32)) (idsArr m c))) shapeCasts_S64x256_S64x1x256 := by
  dsimp only [V]
  simp only [hostOps0, hostOps0_1, hostOps0_2, List.flatten_cons, List.flatten_nil, List.append_nil, List.cons_append,
    List.nil_append]
  after_results
  dsimp only [TRef.ofBuf, TRef.toBuf, cast_eq]
  rfl

/-- On ids that are classes the region finds id `(b, g)` at `(b, 0, g)`. -/
theorem V_ids_at (hr : IdsInRange m) (c : Dev nD) (b : Fin 64) (g : Fin 256) :
    (V m c main_v1 : S64x1x256.Idx → BitVec 32) (ix3 b (0 : Fin 1) g) = idsArr m c (ix2 b g) := by
  rw [V_ids]
  rw [shapeCast_apply _ shapeCasts_S64x256_S64x1x256 (ix3 b (0 : Fin 1) g) (ix2 b g) (by
    rw [Shape.rowMajor_val_two, Shape.rowMajor_val_three]
    show b.val * 256 + g.val = (b.val * 1 + 0) * 256 + g.val
    omega)]
  obtain ⟨h0, h1⟩ := hr c (ix2 b g)
  exact clip_class _ h0 h1

/-! ## A block entry is an array entry -/

/-- The printed index maps over the grid: at point `t` every window's block index is `(t, 0, 0)`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The batch a grid point works on. -/
def batchOf (t : Fin cfg0.N) : Fin 64 := ⟨t.val, lt_of_lt_of_eq t.isLt N_0⟩

/-- The four input blocks at point `t`, at their literal types. -/
abbrev awBlk (c : Dev nD) (t : Fin cfg0.N) : Vec Ideal S1x2048x512 .f32 := iblk m c 0 t
abbrev ohBlk (c : Dev nD) (t : Fin cfg0.N) : Vec Ideal S1x2048x256 .f32 := iblk m c 1 t
abbrev lgBlk (c : Dev nD) (t : Fin cfg0.N) : Vec Ideal S1x512x128 .f32 := iblk m c 2 t
abbrev idBlk (c : Dev nD) (t : Fin cfg0.N) : Vec Ideal S1x1x256 .i32 := iblk m c 3 t

theorem awBlk_at (c : Dev nD) (t : Fin cfg0.N) (p : Fin 2048) (q : Fin 512) :
    awBlk m c t (ix3 (0 : Fin 1) p q) = m ((c : Thread nD τ).loc main_arg1) (ix3 (batchOf t) p q) := by
  show V m c main_arg1 (((cfg0.win 0).blk t).view.emb (ix3 (0 : Fin 1) p q)) = _
  rw [V_main_arg1]
  refine congrArg _ (funext fun a => Fin.ext ?_)
  obtain ⟨⟨a0, a1, a2⟩, -⟩ := idx_facts t
  match a with
  | ⟨0, _⟩ => show win0_0.index t (0 : Fin 3) * 1 + 1 * 0 = t.val; omega
  | ⟨1, _⟩ => show win0_0.index t (1 : Fin 3) * 2048 + 1 * p.val = p.val; omega
  | ⟨2, _⟩ => show win0_0.index t (2 : Fin 3) * 512 + 1 * q.val = q.val; omega

theorem ohBlk_at (c : Dev nD) (t : Fin cfg0.N) (p : Fin 2048) (g : Fin 256) :
    ohBlk m c t (ix3 (0 : Fin 1) p g) = m ((c : Thread nD τ).loc main_arg2) (ix3 (batchOf t) p g) := by
  show V m c main_arg2 (((cfg0.win 1).blk t).view.emb (ix3 (0 : Fin 1) p g)) = _
  rw [V_main_arg2]
  refine congrArg _ (funext fun a => Fin.ext ?_)
  obtain ⟨-, ⟨a0, a1, a2⟩, -⟩ := idx_facts t
  match a with
  | ⟨0, _⟩ => show win0_1.index t (0 : Fin 3) * 1 + 1 * 0 = t.val; omega
  | ⟨1, _⟩ => show win0_1.index t (1 : Fin 3) * 2048 + 1 * p.val = p.val; omega
  | ⟨2, _⟩ => show win0_1.index t (2 : Fin 3) * 256 + 1 * g.val = g.val; omega

theorem lgBlk_at (c : Dev nD) (t : Fin cfg0.N) (q : Fin 512) (k : Fin 128) :
    lgBlk m c t (ix3 (0 : Fin 1) q k) = m ((c : Thread nD τ).loc main_arg0) (ix3 (batchOf t) q k) := by
  show V m c main_arg0 (((cfg0.win 2).blk t).view.emb (ix3 (0 : Fin 1) q k)) = _
  rw [V_main_arg0]
  refine congrArg _ (funext fun a => Fin.ext ?_)
  obtain ⟨-, -, ⟨a0, a1, a2⟩, -⟩ := idx_facts t
  match a with
  | ⟨0, _⟩ => show win0_2.index t (0 : Fin 3) * 1 + 1 * 0 = t.val; omega
  | ⟨1, _⟩ => show win0_2.index t (1 : Fin 3) * 512 + 1 * q.val = q.val; omega
  | ⟨2, _⟩ => show win0_2.index t (2 : Fin 3) * 128 + 1 * k.val = k.val; omega

theorem idBlk_at (hr : IdsInRange m) (c : Dev nD) (t : Fin cfg0.N) (g : Fin 256) :
    idBlk m c t (ix3 (0 : Fin 1) (0 : Fin 1) g) = idsArr m c (ix2 (batchOf t) g) := by
  refine Eq.trans ?_ (V_ids_at m hr c (batchOf t) g)
  show V m c main_v1 (((cfg0.win 3).blk t).view.emb (ix3 (0 : Fin 1) (0 : Fin 1) g)) = V m c main_v1 (ix3 (batchOf t) (0 : Fin 1) g)
  refine congrArg _ (funext fun a => Fin.ext ?_)
  obtain ⟨-, -, -, ⟨a0, a1, a2⟩, -⟩ := idx_facts t
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 256 + 1 * g.val = g.val; omega

/-! ## What a point writes back -/

/-- The cost tensor of the argument arrays as launched, on core `c`. -/
abbrev costArr (c : Dev nD) : S64x512x256.Idx → EReal :=
  Cert.Cost.cost (m ((c : Thread nD τ).loc main_arg0)) (m ((c : Thread nD τ).loc main_arg1))
    (m ((c : Thread nD τ).loc main_arg2)) (idsArr m c)

/-- The stored block at any of its indices, by the entry lemma at the index's coordinates. -/
theorem out_at (x0 : Vec Ideal S1x2048x512 .f32) (x1 : Vec Ideal S1x2048x256 .f32) (x2 : Vec Ideal S1x512x128 .f32)
    (x3 : Vec Ideal S1x1x256 .i32) (y : S1x512x256.Idx)
    (h0 : 0 ≤ (x3 (ix3 (0 : Fin 1) (0 : Fin 1) (y 2)) : BitVec 32).toInt)
    (h1 : (x3 (ix3 (0 : Fin 1) (0 : Fin 1) (y 2)) : BitVec 32).toInt < 128) :
    out0_4 (F := Ideal) x0 x1 x2 x3 y
      = Cert.Cost.entry (fun p => x0 (ix3 (0 : Fin 1) p (y 1))) (fun p => x1 (ix3 (0 : Fin 1) p (y 2)))
          (fun k => x2 (ix3 (0 : Fin 1) (y 1) k)) (x3 (ix3 (0 : Fin 1) (0 : Fin 1) (y 2))) := by
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  obtain ⟨q, g, rfl⟩ : ∃ (q : Fin 512) (g : Fin 256), y = ix3 (0 : Fin 1) q g := ⟨y 1, y 2, hy⟩
  exact Cert.KernelIdeal.Body.out_entry x0 x1 x2 x3 q g h0 h1

set_option maxHeartbeats 400000 in
/-- WHAT POINT `t` WRITES BACK is slice `t` of the cost tensor. -/
theorem flushed_eq (hr : IdsInRange m) (c : Dev nD) (t : Fin cfg0.N) :
    (dats m 0 c).flushed 4 t = ((cfg0.win 4).blk t).view.read (Elt Ideal) (costArr m c) := by
  rw [flushed4]
  funext j
  have hid := idBlk_at m hr c t (((cfg0.win 4).xinj (grid0.coords t) j) 2)
  obtain ⟨h0, h1⟩ := hr c (ix2 (batchOf t) (((cfg0.win 4).xinj (grid0.coords t) j) 2))
  refine (out_at (awBlk m c t) (ohBlk m c t) (lgBlk m c t) (idBlk m c t) ((cfg0.win 4).xinj (grid0.coords t) j)
    (by rw [hid]; exact h0) (by rw [hid]; exact h1)).trans ?_
  have hE : ((cfg0.win 4).blk t).view.emb j
      = ix3 (batchOf t) (((cfg0.win 4).xinj (grid0.coords t) j) 1) (((cfg0.win 4).xinj (grid0.coords t) j) 2) := by
    funext a
    apply Fin.ext
    obtain ⟨-, -, -, -, ⟨a0, a1, a2⟩⟩ := idx_facts t
    match a with
    | ⟨0, _⟩ => show win0_4.index t (0 : Fin 3) * 1 + 1 * (j 0).val = t.val; have : (j 0).val < 1 := (j 0).isLt; omega
    | ⟨1, _⟩ => show win0_4.index t (1 : Fin 3) * 512 + 1 * (j 1).val = (j 1).val; omega
    | ⟨2, _⟩ => show win0_4.index t (2 : Fin 3) * 256 + 1 * (j 2).val = (j 2).val; omega
  show _ = costArr m c (((cfg0.win 4).blk t).view.emb j)
  rw [hE, hid]
  show _ = Cert.Cost.entry
    (fun p => m ((c : Thread nD τ).loc main_arg1) (ix3 (batchOf t) p (((cfg0.win 4).xinj (grid0.coords t) j) 1)))
    (fun p => m ((c : Thread nD τ).loc main_arg2) (ix3 (batchOf t) p (((cfg0.win 4).xinj (grid0.coords t) j) 2)))
    (fun k => m ((c : Thread nD τ).loc main_arg0) (ix3 (batchOf t) (((cfg0.win 4).xinj (grid0.coords t) j) 1) k))
    (idsArr m c (ix2 (batchOf t) (((cfg0.win 4).xinj (grid0.coords t) j) 2)))
  congr 1
  · funext p; exact awBlk_at m c t p _
  · funext p; exact ohBlk_at m c t p _
  · funext k; exact lgBlk_at m c t _ k

/-! ## The 64 slices cover the result array -/

/-- An index of the result array is in point `t`'s block iff each coordinate is in the block's range on its axis. -/
theorem mem_blk (t : Fin cfg0.N) (i : S64x512x256.Idx) :
    i ∈ ((cfg0.win 4).blk t).view.set ↔ ∀ a : Fin 3, win0_4.index t a * S1x512x256.size a ≤ (i a).val ∧ (i a).val < win0_4.index t a * S1x512x256.size a + S1x512x256.size a := by
  show i ∈ ((View.whole main_v2).slice (win0_4.rect t)).set ↔ _
  rw [View.set_slice_whole, Rect.mem_set_unit]
  exact Iff.rfl

/-- Every index of the result array is in the block of the point of its batch. -/
theorem cover (i : S64x512x256.Idx) : ∃ t : Fin cfg0.N, (cfg0.win 4).flush t = true ∧ i ∈ ((cfg0.win 4).blk t).view.set := by
  have hi0 : (i 0).val < 64 := (i 0).isLt
  have hi1 : (i 1).val < 512 := (i 1).isLt
  have hi2 : (i 2).val < 256 := (i 2).isLt
  let t : Fin cfg0.N := ⟨(i 0).val, lt_of_lt_of_eq hi0 N_0.symm⟩
  refine ⟨t, flush0_4 t, ?_⟩
  rw [mem_blk]
  obtain ⟨-, -, -, -, ⟨a0, a1, a2⟩⟩ := idx_facts t
  have ht : t.val = (i 0).val := rfl
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 256 ≤ (i 2).val ∧ (i 2).val < win0_4.index t (2 : Fin 3) * 256 + 256; omega

/-! ## The array after the run, and the run -/

/-- THE RESULT ARRAY after the run is the cost tensor of the argument arrays. -/
theorem final (hr : IdsInRange m) (c : Dev nD) : (dats m 0 c).arrAt 4 cfg0.N = costArr m c :=
  (dats m 0 c).arrAt_eq_of_cover 4 (costArr m c) (fun t _ => flushed_eq m hr c t) cover

/-- The kernel's run: every weakly fair execution ends with the result array at the cost tensor and the arguments unchanged. -/
theorem run (hr : IdsInRange m) : θ_run defs (onTc (τ := τ) (main (F := Ideal))) ⟨m, fun _ => 0, ρ⟩ fun r => ∀ c : Dev nD,
      r.2.mem ((c : Thread nD τ).loc main_v2) = costArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m hr c), (h c).2⟩) (run_blocks m ρ)

end Cert.KernelIdeal.Arr

end
-- ==== Proof.RefRunChunks.lean ====
/-
  The reference program's run, read back: every weakly fair execution of its @main ends with the result buffer at the
  last stage of the program (the stage function of the four argument arrays) and the arguments unchanged.

  The program is a straight line of 82 host operations. Its effect on one buffer is a fold of the operations'
  results over the launch contents; the fold of a concatenation is the fold of the second part after the first.
  The line is read in stretches — the softplus of the attention weights; the grouping term; the softplus of the
  logits; the activity mean and the broadcast ids; the gather along the class axis (in three parts: the index
  brought into range, the in-range mask, the gather and its fill); the final combination — each
  over an ARBITRARY valuation: a stretch's result buffers hold its stage functions of what the valuation holds at the
  buffers it reads, and every buffer it does not write keeps its contents.
-/
import proofs.«424230_j51118700757462_3_alg».proof.Proof.RefRead
import Idealize.ShloMosaic.Lib.StableHlo.Run
import Idealize.ShloMosaic.Lib.Pipeline.Frame

set_option maxRecDepth 16384

noncomputable section

namespace Cert.ReferenceIdeal.RunChunks

open Cert.ReferenceIdeal Cert.ReferenceIdeal.Gen Idealize.ShloMosaic Idealize.ShloMosaic.TcCoe Idealize.SL.Sem
open Idealize.ShloMosaic.StableHlo
open Cert.ReferenceIdeal.ValueP (ops main_eq ops_sub scopedRefs_eq scopedSems_eq)
open Cert.ReferenceIdeal.ReadP

variable {F : FTy → Type} [FloatOps F]

/-! ## The stretches -/

abbrev s1 : List (HloOp τ sig (Elt F)) := (ops (F := F)).take 14
abbrev s2 : List (HloOp τ sig (Elt F)) := ((ops (F := F)).drop 14).take 12
abbrev s3 : List (HloOp τ sig (Elt F)) := ((ops (F := F)).drop 26).take 14
abbrev s4 : List (HloOp τ sig (Elt F)) := ((ops (F := F)).drop 40).take 7
abbrev s5a : List (HloOp τ sig (Elt F)) := ((ops (F := F)).drop 47).take 8
abbrev s5b : List (HloOp τ sig (Elt F)) := ((ops (F := F)).drop 55).take 10
abbrev s5c : List (HloOp τ sig (Elt F)) := ((ops (F := F)).drop 65).take 4
abbrev s6 : List (HloOp τ sig (Elt F)) := (ops (F := F)).drop 69

/-- The line is its stretches, in order. -/
theorem ops_split : (ops (F := F)) = s1 ++ (s2 ++ (s3 ++ (s4 ++ (s5a ++ (s5b ++ (s5c ++ s6)))))) := rfl

/-- Spell a stretch out as its literal operations, fold them, and drop the identity transports between a called
    function's buffers and its values: what is left is an equation between the operations' terms over the valuation. -/
local macro "open_stretch" : tactic =>
  `(tactic| (simp only [s1, s2, s3, s4, s5a, s5b, s5c, s6, ops, List.take_succ_cons, List.take_zero, List.drop_succ_cons, List.drop_zero]
             after_results
             try dsimp only [TRef.ofBuf, TRef.toBuf, cast_eq]))

/-! ## Stretch 1: the softplus of the attention weights -/

theorem s1_v0 (W : Valuation τ sig (Elt F)) :
    after s1 W (Proc.devRef .tc main_v0) = val_main_v0 (W (Proc.devRef .tc main_arg1)) := by
  open_stretch
  rfl

theorem s1_keep_arg0 (W : Valuation τ sig (Elt F)) : after s1 W (Proc.devRef .tc main_arg0) = W (Proc.devRef .tc main_arg0) := by
  open_stretch
theorem s1_keep_arg1 (W : Valuation τ sig (Elt F)) : after s1 W (Proc.devRef .tc main_arg1) = W (Proc.devRef .tc main_arg1) := by
  open_stretch
theorem s1_keep_arg2 (W : Valuation τ sig (Elt F)) : after s1 W (Proc.devRef .tc main_arg2) = W (Proc.devRef .tc main_arg2) := by
  open_stretch
theorem s1_keep_arg3 (W : Valuation τ sig (Elt F)) : after s1 W (Proc.devRef .tc main_arg3) = W (Proc.devRef .tc main_arg3) := by
  open_stretch

/-! ## Stretch 2: the grouping term -/

theorem s2_v9 (W : Valuation τ sig (Elt F)) (x1 : (⟨S64x2048x512, .f32⟩ : BufTy).Contents (Elt F))
    (x2 : (⟨S64x2048x256, .f32⟩ : BufTy).Contents (Elt F))
    (h0 : W (Proc.devRef .tc main_v0) = val_main_v0 x1) (h1 : W (Proc.devRef .tc main_arg1) = x1) (h2 : W (Proc.devRef .tc main_arg2) = x2) :
    after s2 W (Proc.devRef .tc main_v9) = val_main_v9 x1 x2 := by
  open_stretch
  rw [h0, h1, h2]
  rfl

theorem s2_keep_arg0 (W : Valuation τ sig (Elt F)) : after s2 W (Proc.devRef .tc main_arg0) = W (Proc.devRef .tc main_arg0) := by
  open_stretch
theorem s2_keep_arg3 (W : Valuation τ sig (Elt F)) : after s2 W (Proc.devRef .tc main_arg3) = W (Proc.devRef .tc main_arg3) := by
  open_stretch

/-! ## Stretch 3: the softplus of the logits -/

theorem s3_v10 (W : Valuation τ sig (Elt F)) (x0 : (⟨S64x512x128, .f32⟩ : BufTy).Contents (Elt F))
    (h0 : W (Proc.devRef .tc main_arg0) = x0) :
    after s3 W (Proc.devRef .tc main_v10) = val_main_v10 x0 := by
  open_stretch
  rw [h0]
  rfl

theorem s3_keep_v9 (W : Valuation τ sig (Elt F)) : after s3 W (Proc.devRef .tc main_v9) = W (Proc.devRef .tc main_v9) := by
  open_stretch
theorem s3_keep_arg0 (W : Valuation τ sig (Elt F)) : after s3 W (Proc.devRef .tc main_arg0) = W (Proc.devRef .tc main_arg0) := by
  open_stretch
theorem s3_keep_arg3 (W : Valuation τ sig (Elt F)) : after s3 W (Proc.devRef .tc main_arg3) = W (Proc.devRef .tc main_arg3) := by
  open_stretch

/-! ## Stretch 4: the activity mean and the broadcast ids -/

theorem s4_v13 (W : Valuation τ sig (Elt F)) (x0 : (⟨S64x512x128, .f32⟩ : BufTy).Contents (Elt F))
    (h10 : W (Proc.devRef .tc main_v10) = val_main_v10 x0) :
    after s4 W (Proc.devRef .tc main_v13) = val_main_v13 x0 := by
  open_stretch
  rw [h10]
  rfl

theorem s4_v15 (W : Valuation τ sig (Elt F)) (x3 : (⟨S64x256, .i32⟩ : BufTy).Contents (Elt F))
    (h3 : W (Proc.devRef .tc main_arg3) = x3) :
    after s4 W (Proc.devRef .tc main_v15) = val_main_v15 x3 := by
  open_stretch
  rw [h3]
  rfl

theorem s4_keep_v9 (W : Valuation τ sig (Elt F)) : after s4 W (Proc.devRef .tc main_v9) = W (Proc.devRef .tc main_v9) := by
  open_stretch
theorem s4_keep_arg0 (W : Valuation τ sig (Elt F)) : after s4 W (Proc.devRef .tc main_arg0) = W (Proc.devRef .tc main_arg0) := by
  open_stretch

/-! ## Stretch 5: the gather along the class axis, in three parts -/

/-- The index brought into range: a negative id has the class count added; then a unit axis is appended. -/
theorem s5a_v5 (W : Valuation τ sig (Elt F)) (x3 : (⟨S64x256, .i32⟩ : BufTy).Contents (Elt F))
    (h15 : W (Proc.devRef .tc main_v15) = val_main_v15 x3) :
    after s5a W (Proc.devRef .tc main_call2_v5) = val_main_call2_v5 x3 := by
  open_stretch
  rw [h15]
  rfl

theorem s5a_keep_v9 (W : Valuation τ sig (Elt F)) : after s5a W (Proc.devRef .tc main_v9) = W (Proc.devRef .tc main_v9) := by
  open_stretch
theorem s5a_keep_v13 (W : Valuation τ sig (Elt F)) : after s5a W (Proc.devRef .tc main_v13) = W (Proc.devRef .tc main_v13) := by
  open_stretch
theorem s5a_keep_arg0 (W : Valuation τ sig (Elt F)) : after s5a W (Proc.devRef .tc main_arg0) = W (Proc.devRef .tc main_arg0) := by
  open_stretch

/-- The in-range mask of that index. -/
theorem s5b_v12 (W : Valuation τ sig (Elt F)) (x3 : (⟨S64x256, .i32⟩ : BufTy).Contents (Elt F))
    (h5 : W (Proc.devRef .tc main_call2_v5) = val_main_call2_v5 x3) :
    after s5b W (Proc.devRef .tc main_call2_v12) = val_main_call2_v12 x3 := by
  open_stretch
  rw [h5]
  rfl

theorem s5b_keep_v9 (W : Valuation τ sig (Elt F)) : after s5b W (Proc.devRef .tc main_v9) = W (Proc.devRef .tc main_v9) := by
  open_stretch
theorem s5b_keep_v13 (W : Valuation τ sig (Elt F)) : after s5b W (Proc.devRef .tc main_v13) = W (Proc.devRef .tc main_v13) := by
  open_stretch
theorem s5b_keep_arg0 (W : Valuation τ sig (Elt F)) : after s5b W (Proc.devRef .tc main_arg0) = W (Proc.devRef .tc main_arg0) := by
  open_stretch
theorem s5b_keep_call2_v5 (W : Valuation τ sig (Elt F)) : after s5b W (Proc.devRef .tc main_call2_v5) = W (Proc.devRef .tc main_call2_v5) := by
  open_stretch

/-- The gather at that index, and the fill where the mask is off. -/
theorem s5c_v16 (W : Valuation τ sig (Elt F)) (x0 : (⟨S64x512x128, .f32⟩ : BufTy).Contents (Elt F))
    (x3 : (⟨S64x256, .i32⟩ : BufTy).Contents (Elt F))
    (h5 : W (Proc.devRef .tc main_call2_v5) = val_main_call2_v5 x3) (h12 : W (Proc.devRef .tc main_call2_v12) = val_main_call2_v12 x3)
    (h0 : W (Proc.devRef .tc main_arg0) = x0) :
    after s5c W (Proc.devRef .tc main_v16) = val_main_v16 x0 x3 := by
  open_stretch
  rw [h5, h12, h0]
  rfl

theorem s5c_keep_v9 (W : Valuation τ sig (Elt F)) : after s5c W (Proc.devRef .tc main_v9) = W (Proc.devRef .tc main_v9) := by
  open_stretch
theorem s5c_keep_v13 (W : Valuation τ sig (Elt F)) : after s5c W (Proc.devRef .tc main_v13) = W (Proc.devRef .tc main_v13) := by
  open_stretch

/-! ## Stretch 6: the final combination -/

theorem s6_v26 (W : Valuation τ sig (Elt F)) (x0 : (⟨S64x512x128, .f32⟩ : BufTy).Contents (Elt F))
    (x1 : (⟨S64x2048x512, .f32⟩ : BufTy).Contents (Elt F)) (x2 : (⟨S64x2048x256, .f32⟩ : BufTy).Contents (Elt F))
    (x3 : (⟨S64x256, .i32⟩ : BufTy).Contents (Elt F))
    (h9 : W (Proc.devRef .tc main_v9) = val_main_v9 x1 x2) (h13 : W (Proc.devRef .tc main_v13) = val_main_v13 x0)
    (h16 : W (Proc.devRef .tc main_v16) = val_main_v16 x0 x3) :
    after s6 W (Proc.devRef .tc main_v26) = val_main_v26 x0 x1 x2 x3 := by
  open_stretch
  rw [h9, h13, h16]
  rfl

/-! ## The whole line -/

/-- The result buffer after the 82 operations, from any valuation: the last stage of what the valuation holds at the
    four argument buffers. -/
theorem after_ops (W : Valuation τ sig (Elt F)) :
    after ops W (Proc.devRef .tc main_v26)
      = val_main_v26 (W (Proc.devRef .tc main_arg0)) (W (Proc.devRef .tc main_arg1)) (W (Proc.devRef .tc main_arg2)) (W (Proc.devRef .tc main_arg3)) := by
  rw [ops_split, after_append, after_append, after_append, after_append, after_append, after_append, after_append]
  -- after stretch 1
  have v0_1 := s1_v0 W
  have a0_1 := s1_keep_arg0 W
  have a1_1 := s1_keep_arg1 W
  have a2_1 := s1_keep_arg2 W
  have a3_1 := s1_keep_arg3 W
  -- after stretch 2
  have v9_2 := s2_v9 (after s1 W) _ _ v0_1 a1_1 a2_1
  have a0_2 := (s2_keep_arg0 (after s1 W)).trans a0_1
  have a3_2 := (s2_keep_arg3 (after s1 W)).trans a3_1
  -- after stretch 3
  have v10_3 := s3_v10 (after s2 (after s1 W)) _ a0_2
  have v9_3 := (s3_keep_v9 (after s2 (after s1 W))).trans v9_2
  have a0_3 := (s3_keep_arg0 (after s2 (after s1 W))).trans a0_2
  have a3_3 := (s3_keep_arg3 (after s2 (after s1 W))).trans a3_2
  -- after stretch 4
  have v13_4 := s4_v13 (after s3 (after s2 (after s1 W))) _ v10_3
  have v15_4 := s4_v15 (after s3 (after s2 (after s1 W))) _ a3_3
  have v9_4 := (s4_keep_v9 (after s3 (after s2 (after s1 W)))).trans v9_3
  have a0_4 := (s4_keep_arg0 (after s3 (after s2 (after s1 W)))).trans a0_3
  -- after the three parts of stretch 5
  have v5_a := s5a_v5 (after s4 (after s3 (after s2 (after s1 W)))) _ v15_4
  have v9_a := (s5a_keep_v9 (after s4 (after s3 (after s2 (after s1 W))))).trans v9_4
  have v13_a := (s5a_keep_v13 (after s4 (after s3 (after s2 (after s1 W))))).trans v13_4
  have a0_a := (s5a_keep_arg0 (after s4 (after s3 (after s2 (after s1 W))))).trans a0_4
  have v12_b := s5b_v12 (after s5a (after s4 (after s3 (after s2 (after s1 W))))) _ v5_a
  have v5_b := (s5b_keep_call2_v5 (after s5a (after s4 (after s3 (after s2 (after s1 W)))))).trans v5_a
  have v9_b := (s5b_keep_v9 (after s5a (after s4 (after s3 (after s2 (after s1 W)))))).trans v9_a
  have v13_b := (s5b_keep_v13 (after s5a (after s4 (after s3 (after s2 (after s1 W)))))).trans v13_a
  have a0_b := (s5b_keep_arg0 (after s5a (after s4 (after s3 (after s2 (after s1 W)))))).trans a0_a
  have v16_c := s5c_v16 (after s5b (after s5a (after s4 (after s3 (after s2 (after s1 W)))))) _ _ v5_b v12_b a0_b
  have v9_c := (s5c_keep_v9 (after s5b (after s5a (after s4 (after s3 (after s2 (after s1 W))))))).trans v9_b
  have v13_c := (s5c_keep_v13 (after s5b (after s5a (after s4 (after s3 (after s2 (after s1 W))))))).trans v13_b
  exact s6_v26 _ _ _ _ _ v9_c v13_c v16_c

/-- THE RUN: on every device, for any float values, from any memory with zero counters, every weakly fair execution of
    @main terminates with the result at the program's last stage of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
        = val_main_v26 (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v26).trans (after_ops (launchContents m c)),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RunChunks

end
-- ==== Proof.RefEntry.lean ====
/-
  The reference's result, read at an index, is the specification's cost tensor, for ids that are classes.
-/
import proofs.«424230_j51118700757462_3_alg».proof.Proof.RefRead
import proofs.«424230_j51118700757462_3_alg».proof.Proof.CostSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

namespace Entry

open Cert.ReferenceIdeal.ReadP

/-! ## The guarded softplus of the two float arguments, at one element -/

/-- The softplus stage of the attention weights reads `Cost.sp` of the element. -/
theorem v0_at (aw : (⟨S64x2048x512, .f32⟩ : BufTy).Contents (Elt Ideal)) (j : S64x2048x512.Idx) :
    val_main_v0 (F := Ideal) aw j = Cost.sp (aw j) := by
  show Scalar.select (Ideal.cmp .une (aw j - Ideal.ofBits .f32 0x00000000#32) (aw j - Ideal.ofBits .f32 0x00000000#32))
      (aw j + Ideal.ofBits .f32 0x00000000#32)
      (max (aw j) (Ideal.ofBits .f32 0x00000000#32)
        + Ideal.log1p (Ideal.exp (-(max (aw j - Ideal.ofBits .f32 0x00000000#32) (-(aw j - Ideal.ofBits .f32 0x00000000#32)))))) = _
  rw [Ideal.ofBits_zero_f32]
  exact Cost.sp_of_une (aw j)

/-- The softplus stage of the logits reads `Cost.sp` of the element. -/
theorem v10_at (lg : (⟨S64x512x128, .f32⟩ : BufTy).Contents (Elt Ideal)) (j : S64x512x128.Idx) :
    val_main_v10 (F := Ideal) lg j = Cost.sp (lg j) := by
  show Scalar.select (Ideal.cmp .une (lg j - Ideal.ofBits .f32 0x00000000#32) (lg j - Ideal.ofBits .f32 0x00000000#32))
      (lg j + Ideal.ofBits .f32 0x00000000#32)
      (max (lg j) (Ideal.ofBits .f32 0x00000000#32)
        + Ideal.log1p (Ideal.exp (-(max (lg j - Ideal.ofBits .f32 0x00000000#32) (-(lg j - Ideal.ofBits .f32 0x00000000#32)))))) = _
  rw [Ideal.ofBits_zero_f32]
  exact Cost.sp_of_une (lg j)

/-! ## The attention half -/

/-- The softplus column mean of the attention weights, broadcast over the groups. -/
theorem v8_at (aw : (⟨S64x2048x512, .f32⟩ : BufTy).Contents (Elt Ideal)) (b : Fin 64) (q : Fin 512) (g : Fin 256) :
    val_main_v8 (F := Ideal) aw (ix3 b q g) = (∑ p : Fin 2048, Cost.sp (aw (ix3 b p q))) * ((1 / 2048 : ℝ) : EReal) := by
  rw [val_main_v8_apply, val_main_v7_apply, val_main_v3_apply, val_main_v1_apply]
  show Ideal.div (Ideal.ofBits .f32 0x00000000#32 + ∑ k : Fin 2048, val_main_v0 (F := Ideal) aw _) (Ideal.ofBits .f32 0x45000000#32) = _
  rw [Ideal.ofBits_zero_f32, zero_add, Cost.ofBits_2048, Cost.div_2048]
  refine congrArg (· * _) (Finset.sum_congr rfl fun p _ => ?_)
  refine (v0_at aw _).trans (congrArg (fun j => Cost.sp (aw j)) (funext fun a => Fin.ext ?_))
  match a with
  | ⟨0, _⟩ => rfl
  | ⟨1, _⟩ => rfl
  | ⟨2, _⟩ => rfl

/-- The attention-weighted grouping targets over `2048`. -/
theorem v6_at (aw : (⟨S64x2048x512, .f32⟩ : BufTy).Contents (Elt Ideal)) (oh : (⟨S64x2048x256, .f32⟩ : BufTy).Contents (Elt Ideal))
    (b : Fin 64) (q : Fin 512) (g : Fin 256) :
    val_main_v6 (F := Ideal) aw oh (ix3 b q g)
      = (∑ p : Fin 2048, aw (ix3 b p q) * oh (ix3 b p g)) * ((1 / 2048 : ℝ) : EReal) := by
  rw [val_main_v6_apply, val_main_v4_apply]
  show Ideal.div (∑ k : Fin 2048, _) (Ideal.ofBits .f32 0x45000000#32) = _
  rw [Cost.ofBits_2048, Cost.div_2048]
  refine congrArg (· * _) (Finset.sum_congr rfl fun p _ => congrArg₂ (· * ·) (congrArg aw (funext fun a => Fin.ext ?_)) (congrArg oh (funext fun a => Fin.ext ?_)))
  · match a with
    | ⟨0, _⟩ => rfl
    | ⟨1, _⟩ => rfl
    | ⟨2, _⟩ => rfl
  · match a with
    | ⟨0, _⟩ => rfl
    | ⟨1, _⟩ => rfl
    | ⟨2, _⟩ => rfl

/-! ## The logits half: the row mean -/

/-- The softplus row mean of the logits, broadcast over the groups. -/
theorem v20_at (lg : (⟨S64x512x128, .f32⟩ : BufTy).Contents (Elt Ideal)) (b : Fin 64) (q : Fin 512) (g : Fin 256) :
    val_main_v20 (F := Ideal) lg (ix3 b q g) = (∑ c : Fin 128, Cost.sp (lg (ix3 b q c))) * ((1 / 128 : ℝ) : EReal) := by
  rw [val_main_v20_apply, val_main_v17_apply, val_main_v13_apply, val_main_v11_apply]
  show Ideal.div (Ideal.ofBits .f32 0x00000000#32 + ∑ k : Fin 128, val_main_v10 (F := Ideal) lg _) (Ideal.ofBits .f32 0x43000000#32) = _
  rw [Ideal.ofBits_zero_f32, zero_add, Cost.ofBits_128, Cost.div_128]
  refine congrArg (· * _) (Finset.sum_congr rfl fun c _ => ?_)
  refine (v10_at lg _).trans (congrArg (fun j => Cost.sp (lg j)) (funext fun a => Fin.ext ?_))
  match a with
  | ⟨0, _⟩ => rfl
  | ⟨1, _⟩ => rfl
  | ⟨2, _⟩ => rfl

/-! ## The logits half: the entry the id names -/

/-- The id array broadcast over the queries reads, at `(b, q, g)`, the id word at `(b, g)`. -/
theorem v15_at (ids : (⟨S64x256, .i32⟩ : BufTy).Contents (Elt Ideal)) (b : Fin 64) (q : Fin 512) (g : Fin 256) :
    val_main_v15 (F := Ideal) ids (ix3 b q g) = ids (ix2 b g) := by
  rw [val_main_v15_apply, val_main_v14_apply]
  refine congrArg ids (funext fun a => Fin.ext ?_)
  match a with
  | ⟨0, _⟩ => rfl
  | ⟨1, _⟩ => rfl

/-- A non-negative id word is not wrapped around: the adjusted index is the word itself. -/
theorem call2_v4_at (ids : (⟨S64x256, .i32⟩ : BufTy).Contents (Elt Ideal)) (b : Fin 64) (q : Fin 512) (g : Fin 256)
    (h0 : 0 ≤ (ids (ix2 b g) : BitVec 32).toInt) :
    val_main_call2_v4 (F := Ideal) ids (ix3 b q g) = ids (ix2 b g) := by
  rw [val_main_call2_v4_apply, val_main_call2_v1_apply, v15_at]
  have hz : val_main_call2_v0 (F := Ideal) (ix3 b q g) = 0#32 := rfl
  rw [hz]
  have hc : IntOp.cmpi .slt (ids (ix2 b g) : BitVec 32) 0#32 = 0#1 :=
    eq_zero_of_ne_one fun h => by
      have h' := IntOp.cmpi_slt.1 h
      rw [BitVec.toInt_zero] at h'
      omega
  rw [hc, select_zero]

/-- The adjusted index with a trailing unit axis. -/
theorem call2_v5_at (ids : (⟨S64x256, .i32⟩ : BufTy).Contents (Elt Ideal)) (b : Fin 64) (q : Fin 512) (g : Fin 256) (u : Fin 1) :
    val_main_call2_v5 (F := Ideal) ids (ix4 b q g u) = val_main_call2_v4 (F := Ideal) ids (ix3 b q g) := by
  unfold val_main_call2_v5
  exact shapeCast_apply _ shapeCasts_S64x512x256_S64x512x256x1 (ix4 b q g u) (ix3 b q g) (by
    have hu : u.val = 0 := by omega
    rw [Shape.rowMajor_val_three, Shape.rowMajor_val_four]
    show (b.val * 512 + q.val) * 256 + g.val = ((b.val * 512 + q.val) * 256 + g.val) * 1 + u.val
    omega)

/-- For an id word in `[0, 128)` the in-range mask is set. -/
theorem call2_v11_at (ids : (⟨S64x256, .i32⟩ : BufTy).Contents (Elt Ideal)) (b : Fin 64) (q : Fin 512) (g : Fin 256) (u : Fin 1)
    (h0 : 0 ≤ (ids (ix2 b g) : BitVec 32).toInt) (h1 : (ids (ix2 b g) : BitVec 32).toInt < 128) :
    val_main_call2_v11 (F := Ideal) ids (ix4 b q g u) = 1#1 := by
  rw [val_main_call2_v11_apply, val_main_call2_v7_apply, val_main_call2_v10_apply, call2_v5_at, call2_v4_at ids b q g h0]
  have h6 : val_main_call2_v6 (F := Ideal) (ix4 b q g u) = 0#32 := rfl
  have h9 : val_main_call2_v9 (F := Ideal) (ix4 b q g u) = 127#32 := rfl
  rw [h6, h9]
  refine IntOp.andi_eq_one.2 ⟨IntOp.cmpi_sge.2 ?_, IntOp.cmpi_sle.2 ?_⟩
  · rw [BitVec.toInt_zero]; exact h0
  · have : (127#32 : BitVec 32).toInt = 127 := by decide
    rw [this]; omega

/-- A left fold by `and` from `1` over words that are all `1` is `1`. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    have : IntOp.andi (1#1 : BitVec 1) 1#1 = 1#1 := by decide
    rw [this]
    exact foldl_andi_one f l fun n hn => h n (List.mem_cons_of_mem _ hn)

/-- The mask reduced over its unit axis is set as well. -/
theorem call2_v12_at (ids : (⟨S64x256, .i32⟩ : BufTy).Contents (Elt Ideal)) (b : Fin 64) (q : Fin 512) (g : Fin 256)
    (h0 : 0 ≤ (ids (ix2 b g) : BitVec 32).toInt) (h1 : (ids (ix2 b g) : BitVec 32).toInt < 128) :
    val_main_call2_v12 (F := Ideal) ids (ix3 b q g) = 1#1 := by
  unfold val_main_call2_v12
  rw [Host.reduce_eq_foldl]
  show List.foldl _ (1#1 : BitVec 1) _ = _
  refine foldl_andi_one _ _ fun n hn => ?_
  have hd : reducesTo_S64x512x256x1_S64x512x256_d3.drop n = ix3 b q g := of_decide_eq_true (List.mem_filter.1 hn).2
  obtain ⟨b', q', g', u, rfl⟩ : ∃ (b' : Fin 64) (q' : Fin 512) (g' : Fin 256) (u : Fin 1), n = ix4 b' q' g' u :=
    ⟨n 0, n 1, n 2, n 3, eq_ix4 n⟩
  have e0 : b' = b := Fin.ext ((Shape.ReducesTo.drop_apply_val_of_eq reducesTo_S64x512x256x1_S64x512x256_d3 (ix4 b' q' g' u) 0 0).symm.trans
    (congrArg (fun f : S64x512x256.Idx => (f 0).val) hd))
  have e1 : q' = q := Fin.ext ((Shape.ReducesTo.drop_apply_val_of_eq reducesTo_S64x512x256x1_S64x512x256_d3 (ix4 b' q' g' u) 1 1).symm.trans
    (congrArg (fun f : S64x512x256.Idx => (f 1).val) hd))
  have e2 : g' = g := Fin.ext ((Shape.ReducesTo.drop_apply_val_of_eq reducesTo_S64x512x256x1_S64x512x256_d3 (ix4 b' q' g' u) 2 2).symm.trans
    (congrArg (fun f : S64x512x256.Idx => (f 2).val) hd))
  subst e0 e1 e2
  exact call2_v11_at ids b' q' g' u h0 h1

/-! ### The gather's operand index, axis by axis -/

theorem gather_coord0 (idx : IVec S64x512x256x1 32) (j : S64x512x256.Idx) :
    gather_S64x512x128_S64x512x256x1_S64x512x256_n_2_01_01_2_3_111.start j idx 0
      + gather_S64x512x128_S64x512x256x1_S64x512x256_n_2_01_01_2_3_111.batchCoord j 0
      + gather_S64x512x128_S64x512x256x1_S64x512x256_n_2_01_01_2_3_111.offCoord j 0 = (j 0).val := by
  rw [GatherDims.start_batching _ _ _ _ (show (0 : Fin S64x512x128.rank) ∈ gather_S64x512x128_S64x512x256x1_S64x512x256_n_2_01_01_2_3_111.operandBatchingDims by decide),
    GatherDims.offCoord_eq_zero _ _ _ (fun h => ((GatherDims.mem_sKept _ _).mp h).2 (show (0 : Fin S64x512x128.rank) ∈ gather_S64x512x128_S64x512x256x1_S64x512x256_n_2_01_01_2_3_111.operandBatchingDims by decide)),
    Nat.zero_add, Nat.add_zero]
  unfold GatherDims.batchCoord
  rw [dif_pos (show (0 : Fin S64x512x128.rank) ∈ gather_S64x512x128_S64x512x256x1_S64x512x256_n_2_01_01_2_3_111.operandBatchingDims by decide)]
  rfl

theorem gather_coord1 (idx : IVec S64x512x256x1 32) (j : S64x512x256.Idx) :
    gather_S64x512x128_S64x512x256x1_S64x512x256_n_2_01_01_2_3_111.start j idx 1
      + gather_S64x512x128_S64x512x256x1_S64x512x256_n_2_01_01_2_3_111.batchCoord j 1
      + gather_S64x512x128_S64x512x256x1_S64x512x256_n_2_01_01_2_3_111.offCoord j 1 = (j 1).val := by
  rw [GatherDims.start_batching _ _ _ _ (show (1 : Fin S64x512x128.rank) ∈ gather_S64x512x128_S64x512x256x1_S64x512x256_n_2_01_01_2_3_111.operandBatchingDims by decide),
    GatherDims.offCoord_eq_zero _ _ _ (fun h => ((GatherDims.mem_sKept _ _).mp h).2 (show (1 : Fin S64x512x128.rank) ∈ gather_S64x512x128_S64x512x256x1_S64x512x256_n_2_01_01_2_3_111.operandBatchingDims by decide)),
    Nat.zero_add, Nat.add_zero]
  unfold GatherDims.batchCoord
  rw [dif_pos (show (1 : Fin S64x512x128.rank) ∈ gather_S64x512x128_S64x512x256x1_S64x512x256_n_2_01_01_2_3_111.operandBatchingDims by decide)]
  rfl

theorem gather_coord2 (idx : IVec S64x512x256x1 32) (b : Fin 64) (q : Fin 512) (g : Fin 256) :
    gather_S64x512x128_S64x512x256x1_S64x512x256_n_2_01_01_2_3_111.start (ix3 b q g) idx 2
      + gather_S64x512x128_S64x512x256x1_S64x512x256_n_2_01_01_2_3_111.batchCoord (ix3 b q g) 2
      + gather_S64x512x128_S64x512x256x1_S64x512x256_n_2_01_01_2_3_111.offCoord (ix3 b q g) 2
      = min (idx (ix4 b q g (0 : Fin 1))).toInt.toNat 127 := by
  rw [GatherDims.batchCoord_eq_zero _ _ _ (show (2 : Fin S64x512x128.rank) ∉ gather_S64x512x128_S64x512x256x1_S64x512x256_n_2_01_01_2_3_111.operandBatchingDims by decide),
    GatherDims.offCoord_eq_zero _ _ _ (fun h => ((GatherDims.mem_sKept _ _).mp h).1 (show (2 : Fin S64x512x128.rank) ∈ gather_S64x512x128_S64x512x256x1_S64x512x256_n_2_01_01_2_3_111.collapsedSliceDims by decide)),
    Nat.add_zero]
  unfold GatherDims.start
  rw [dif_pos (show (2 : Fin S64x512x128.rank) ∈ gather_S64x512x128_S64x512x256x1_S64x512x256_n_2_01_01_2_3_111.startIndexMap by decide)]
  have hsi : gather_S64x512x128_S64x512x256x1_S64x512x256_n_2_01_01_2_3_111.siIdx (ix3 b q g)
      ⟨List.idxOf (2 : Fin S64x512x128.rank) gather_S64x512x128_S64x512x256x1_S64x512x256_n_2_01_01_2_3_111.startIndexMap,
        List.idxOf_lt_length_iff.2 (show (2 : Fin S64x512x128.rank) ∈ gather_S64x512x128_S64x512x256x1_S64x512x256_n_2_01_01_2_3_111.startIndexMap by decide)⟩
      = ix4 b q g (0 : Fin 1) := by
    funext c; refine Fin.ext ?_
    match c with
    | ⟨0, _⟩ => rfl
    | ⟨1, _⟩ => rfl
    | ⟨2, _⟩ => rfl
    | ⟨3, _⟩ => rfl
  rw [hsi]
  rfl

/-- The gather along the class axis reads, at `(b, q, g)`, the logit of row `(b, q)` at the class its start index
    names: the start index read signed and clamped into the 128 classes. -/
theorem gather_at (lg : (⟨S64x512x128, .f32⟩ : BufTy).Contents (Elt Ideal)) (idx : IVec S64x512x256x1 32)
    (b : Fin 64) (q : Fin 512) (g : Fin 256) :
    Host.gather gather_S64x512x128_S64x512x256x1_S64x512x256_n_2_01_01_2_3_111 lg idx (ix3 b q g)
      = lg (ix3 b q (Cost.cls (idx (ix4 b q g (0 : Fin 1))))) := by
  unfold Host.gather
  refine congrArg lg (funext fun a => Fin.ext ?_)
  match a with
  | ⟨0, _⟩ => exact gather_coord0 idx _
  | ⟨1, _⟩ => exact gather_coord1 idx _
  | ⟨2, _⟩ => exact gather_coord2 idx b q g

/-- For an id word in `[0, 128)`: the selected entry over `128` is the logit at the id's class, over `128`. -/
theorem v19_at (lg : (⟨S64x512x128, .f32⟩ : BufTy).Contents (Elt Ideal)) (ids : (⟨S64x256, .i32⟩ : BufTy).Contents (Elt Ideal))
    (b : Fin 64) (q : Fin 512) (g : Fin 256)
    (h0 : 0 ≤ (ids (ix2 b g) : BitVec 32).toInt) (h1 : (ids (ix2 b g) : BitVec 32).toInt < 128) :
    val_main_v19 (F := Ideal) lg ids (ix3 b q g) = lg (ix3 b q (Cost.cls (ids (ix2 b g)))) * ((1 / 128 : ℝ) : EReal) := by
  rw [val_main_v19_apply, val_main_v16_apply, call2_v12_at ids b q g h0 h1, select_one]
  show Ideal.div (val_main_call2_v13 (F := Ideal) lg ids (ix3 b q g)) (Ideal.ofBits .f32 0x43000000#32) = _
  rw [Cost.ofBits_128, Cost.div_128]
  refine congrArg (· * _) ?_
  unfold val_main_call2_v13
  rw [gather_at, call2_v5_at, call2_v4_at ids b q g h0]

end Entry

open Entry Cert.ReferenceIdeal.ReadP in
/-- THE REFERENCE AT AN INDEX: for argument arrays `lg` (logits), `aw` (attention weights), `oh` (grouping targets)
    and `ids` whose word at `(i 0, i 2)` is a class in `[0,128)`, the last stage of the reference's program at `i` is
    the specification's cost at `i`. -/
theorem ref_entry (lg : (⟨S64x512x128, .f32⟩ : BufTy).Contents (Elt Ideal)) (aw : (⟨S64x2048x512, .f32⟩ : BufTy).Contents (Elt Ideal))
    (oh : (⟨S64x2048x256, .f32⟩ : BufTy).Contents (Elt Ideal)) (ids : (⟨S64x256, .i32⟩ : BufTy).Contents (Elt Ideal))
    (i : S64x512x256.Idx)
    (h0 : 0 ≤ (ids (ix2 (i 0) (i 2)) : BitVec 32).toInt) (h1 : (ids (ix2 (i 0) (i 2)) : BitVec 32).toInt < 128) :
    Cert.ReferenceIdeal.ReadP.val_main_v26 (F := Ideal) lg aw oh ids i = Cert.Cost.cost lg aw oh ids i := by
  obtain ⟨b, q, g, rfl⟩ : ∃ (b : Fin 64) (q : Fin 512) (g : Fin 256), i = ix3 b q g := ⟨i 0, i 1, i 2, eq_ix3 i⟩
  rw [val_main_v26_apply, val_main_v23_apply, val_main_v25_apply, val_main_v9_apply, val_main_v21_apply]
  show Ideal.ofBits .f32 0x3F800000#32 * (val_main_v8 (F := Ideal) aw (ix3 b q g) - val_main_v6 (F := Ideal) aw oh (ix3 b q g))
      + Ideal.ofBits .f32 0x3F800000#32 * (val_main_v20 (F := Ideal) lg (ix3 b q g) - val_main_v19 (F := Ideal) lg ids (ix3 b q g)) = _
  rw [Cost.ofBits_one, one_mul, one_mul, v8_at, v6_at, v20_at, v19_at lg ids b q g h0 h1]
  rfl

end Cert.ReferenceIdeal.RefValue

end
-- ==== Proof.lean ====
/-
  The certificate's proof: a cost-matrix kernel against its jnp reference, over the extended reals.

  For batch `b`, query `q` and target group `g` both programs compute

    cost[b,q,g] = ( mean_p softplus(attw[b,p,q]) − (1/2048) Σ_p attw[b,p,q] · onehot[b,p,g] )
                + ( mean_c softplus(logits[b,q,c]) − (1/128) logits[b,q,ids[b,g]] ).

  The kernel works one batch per grid point: two matrix products into zero accumulators (the second against an
  indicator table it builds from the id row, which sums the logits row down to the class column), two lane sums of
  a guarded softplus, and products with the dyadic words `2⁻¹¹` and `2⁻⁷`. The reference takes host sums, a batched
  `dot_general`, quotients by `2048` and `128`, and a gather along the class axis. On the extended reals a change of
  float format is the identity, sums commute, a quotient by `2ᵏ` is the product with `2⁻ᵏ`, and `x · 0 = 0` for every
  `x`, so the two agree entry by entry (Proof/CostSpec.lean states the common value) wherever the ids are classes:
  the kernel clips an id into `[0, 127]` where the reference wraps a negative one and fills an overflowing one, so
  the precondition asks `0 ≤ id < 128` of every id beside the finiteness of the float inputs (which no step uses).

  The kernel's frames are the generated ones; the reference's run is read stretch by stretch (Proof/RefRunChunks.lean)
  and its frame is that run with the result dropped; the idealization rewrote nothing, so `preserves` is `True`.
-/
import proofs.«424230_j51118700757462_3_alg».proof.Defs
import proofs.«424230_j51118700757462_3_alg».proof.Proof.Gen.Kernel
import proofs.«424230_j51118700757462_3_alg».proof.Proof.Gen.Kernel.Skeleton
import proofs.«424230_j51118700757462_3_alg».proof.Proof.Gen.Kernel.Launch
import proofs.«424230_j51118700757462_3_alg».proof.Proof.Gen.Kernel.Points
import proofs.«424230_j51118700757462_3_alg».proof.Proof.Gen.Kernel.Frame
import proofs.«424230_j51118700757462_3_alg».proof.Proof.Gen.KernelIdeal
import proofs.«424230_j51118700757462_3_alg».proof.Proof.Gen.KernelIdeal.Skeleton
import proofs.«424230_j51118700757462_3_alg».proof.Proof.Gen.KernelIdeal.Launch
import proofs.«424230_j51118700757462_3_alg».proof.Proof.Gen.KernelIdeal.Points
import proofs.«424230_j51118700757462_3_alg».proof.Proof.Gen.KernelIdeal.Frame
import proofs.«424230_j51118700757462_3_alg».proof.Proof.Gen.ReferenceIdeal
import proofs.«424230_j51118700757462_3_alg».proof.Proof.Gen.KernelIdeal.Value
import proofs.«424230_j51118700757462_3_alg».proof.Proof.RefRun
import proofs.«424230_j51118700757462_3_alg».proof.Proof.RefRead
import proofs.«424230_j51118700757462_3_alg».proof.Proof.Gen.Pre_finite_inputs
import proofs.«424230_j51118700757462_3_alg».proof.Proof.CostSpec
import proofs.«424230_j51118700757462_3_alg».proof.Proof.PreIds
import proofs.«424230_j51118700757462_3_alg».proof.Proof.KernelEntry
import proofs.«424230_j51118700757462_3_alg».proof.Proof.KernelArray
import proofs.«424230_j51118700757462_3_alg».proof.Proof.RefRunChunks
import proofs.«424230_j51118700757462_3_alg».proof.Proof.RefEntry
import Idealize.ShloMosaic.Adequacy
import Idealize.ShloMosaic.Init

noncomputable section

namespace Cert.Proof

open Idealize.ShloMosaic Idealize.SL.Sem

/-- The kernel as printed runs and leaves its arguments as launched: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunChunks.run (F := Ideal) m ρ)

/-- The precondition makes every id a class. -/
theorem ids_in_range (m : (ℓ : Loc Cert.KernelIdeal.nD Cert.KernelIdeal.τ Cert.KernelIdeal.sig) → Buf (Elt Ideal) ℓ)
    (h : Cert.Pre_KernelIdeal m) : Cert.KernelIdeal.Arr.IdsInRange m :=
  fun c j => Cert.PreIds.range_of_fn _ _ _ _ (h c) j

/-- At the extended reals the kernel's result array ends at the cost tensor of its arguments and the reference's at its
    last stage of arguments that agree with them: the same tensor, entry by entry, the ids being classes. -/
theorem algebraic : Cert.algebraic_KernelIdeal_ReferenceIdeal := by
  intro m ρ m' ρ' hpre hagree
  have hr := ids_in_range m hpre
  refine ⟨fun c => Cert.KernelIdeal.Arr.costArr m c, Cert.KernelIdeal.Arr.run m ρ hr, ?_⟩
  refine (θ_run Cert.ReferenceIdeal.defs _ _).mono (fun _ h c => ⟨(h c).1.trans ?_, (h c).2⟩)
    (Cert.ReferenceIdeal.RunChunks.run (F := Ideal) m' ρ')
  rw [(hagree c).1, (hagree c).2.1, (hagree c).2.2.1, (hagree c).2.2.2]
  funext i
  exact Cert.ReferenceIdeal.RefValue.ref_entry _ _ _ _ i (hr c _).1 (hr c _).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
